-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v52) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x64 : Shape := ⟨2, ![600000, 64]⟩
abbrev S2x1200000 : Shape := ⟨2, ![2, 1200000]⟩
abbrev S_ : Shape := ⟨0, ![]⟩
abbrev S1x1200000 : Shape := ⟨2, ![1, 1200000]⟩
abbrev S1200000 : Shape := ⟨1, ![1200000]⟩

class Facts : Prop where
  bcast_S_S600000x64 : S_.BroadcastsInDim S600000x64 (![] : Fin 0 → Fin S600000x64.rank)
  reducesTo_S600000x64_S_d0_1 : S600000x64.ReducesTo [0, 1] S_
  h_S_ : 0 < S_.numel
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_

variable [Facts]

def fn {F : FTy → Type} [FloatOps F] (main_arg0 : FVec F S600000x64 .f32) (main_arg1 : IVec S2x1200000 32) : IVec S_ 1 :=
  let main_v0 : FVec F S600000x64 .f32 := Host.absf main_arg0
  let main_cst : FVec F S_ .f32 := constant S_ .f32 0x7F800000#32
  let main_v1 : FVec F S600000x64 .f32 := broadcastInDim S600000x64 ![] bcast_S_S600000x64 main_cst
  let main_v2 : IVec S600000x64 1 := cmpf .olt main_v0 main_v1
  let main_c : IVec S_ 1 := constantI S_ 1 1#1
  let main_v3 : IVec S_ 1 := (fun x v => Host.reduce IntOp.andi x v reducesTo_S600000x64_S_d0_1 h_S_) main_v2 main_c
  let main_v4 : IVec S1x1200000 32 := (extractStridedSlice S1x1200000 ![0, 0] · slices_S2x1200000_S1x1200000_0_0) main_arg1
  let main_v5 : IVec S1200000 32 := shapeCast S1200000 main_v4 shapeCasts_S1x1200000_S1200000
  let main_c_0 : IVec S_ 32 := constantI S_ 32 0#32
  let main_v6 : IVec S1200000 32 := broadcastInDim S1200000 ![] bcast_S_S1200000 main_c_0
  let main_v7 : IVec S1200000 1 := cmpi .sge main_v5 main_v6
  let main_v8 : IVec S1x1200000 32 := (extractStridedSlice S1x1200000 ![0, 0] · slices_S2x1200000_S1x1200000_0_0) main_arg1
  let main_v9 : IVec S1200000 32 := shapeCast S1200000 main_v8 shapeCasts_S1x1200000_S1200000
  let main_c_1 : IVec S_ 32 := constantI S_ 32 600000#32
  let main_v10 : IVec S1200000 32 := broadcastInDim S1200000 ![] bcast_S_S1200000 main_c_1
  let main_v11 : IVec S1200000 1 := cmpi .slt main_v9 main_v10
  let main_v12 : IVec S1200000 1 := andi main_v7 main_v11
  let main_c_2 : IVec S_ 1 := constantI S_ 1 1#1
  let main_v13 : IVec S_ 1 := (fun x v => Host.reduce IntOp.andi x v reducesTo_S1200000_S_d0 h_S_) main_v12 main_c_2
  let main_v14 : IVec S_ 1 := andi main_v3 main_v13
  main_v14
-- ==== Kernel.lean ====
abbrev S600000x64 : Shape := ⟨2, ![600000, 64]⟩
abbrev S2x1200000 : Shape := ⟨2, ![2, 1200000]⟩
abbrev S1x1200000 : Shape := ⟨2, ![1, 1200000]⟩
abbrev S1200000 : Shape := ⟨1, ![1200000]⟩
abbrev S_ : Shape := ⟨0, ![]⟩
abbrev S600000 : Shape := ⟨1, ![600000]⟩
abbrev S1200000x1 : Shape := ⟨2, ![1200000, 1]⟩
abbrev S1 : Shape := ⟨1, ![1]⟩
abbrev S1x1 : Shape := ⟨2, ![1, 1]⟩
abbrev S1200000x64 : Shape := ⟨2, ![1200000, 64]⟩
abbrev S30000x64 : Shape := ⟨2, ![30000, 64]⟩
abbrev S30000x1 : Shape := ⟨2, ![30000, 1]⟩
abbrev S20000x64 : Shape := ⟨2, ![20000, 64]⟩
abbrev S200000x64 : Shape := ⟨2, ![200000, 64]⟩
abbrev S400000x64 : Shape := ⟨2, ![400000, 64]⟩

abbrev nBuf : Space → Nat
  | .hbm => 139
  | .vmem => 36
  | .smem => 0
  | _ => 0

abbrev hbmTy0_0 (i : Nat) : BufTy := match i % 128 with
  | 0 => ⟨S600000x64, .f32⟩
  | 1 => ⟨S2x1200000, .i32⟩
  | 2 => ⟨S1x1200000, .i32⟩
  | 3 => ⟨S1200000, .i32⟩
  | 4 => ⟨S1x1200000, .i32⟩
  | 5 => ⟨S1200000, .i32⟩
  | 6 => ⟨S_, .f32⟩
  | 7 => ⟨S1200000, .f32⟩
  | 8 => ⟨S_, .f32⟩
  | 9 => ⟨S600000, .f32⟩
  | 10 => ⟨S1200000x1, .i32⟩
  | 11 => ⟨S600000, .f32⟩
  | 12 => ⟨S_, .f32⟩
  | 13 => ⟨S600000, .f32⟩
  | 14 => ⟨S600000, .i1⟩
  | 15 => ⟨S_, .f32⟩
  | 16 => ⟨S600000, .f32⟩
  | 17 => ⟨S600000, .i1⟩
  | 18 => ⟨S_, .f32⟩
  | 19 => ⟨S_, .f32⟩
  | 20 => ⟨S600000, .f32⟩
  | 21 => ⟨S600000, .f32⟩
  | 22 => ⟨S600000, .f32⟩
  | 23 => ⟨S_, .f32⟩
  | 24 => ⟨S600000, .f32⟩
  | 25 => ⟨S600000, .f32⟩
  | 26 => ⟨S_, .f32⟩
  | 27 => ⟨S_, .f32⟩
  | 28 => ⟨S600000, .f32⟩
  | 29 => ⟨S600000, .f32⟩
  | 30 => ⟨S_, .i32⟩
  | 31 => ⟨S1200000, .i32⟩
  | 32 => ⟨S1200000, .i1⟩
  | 33 => ⟨S_, .i32⟩
  | 34 => ⟨S1200000, .i32⟩
  | 35 => ⟨S1200000, .i32⟩
  | 36 => ⟨S1200000, .i32⟩
  | 37 => ⟨S1200000x1, .i32⟩
  | 38 => ⟨S1200000, .f32⟩
  | 39 => ⟨S_, .i32⟩
  | 40 => ⟨S1200000, .i32⟩
  | 41 => ⟨S1200000, .i1⟩
  | 42 => ⟨S_, .i32⟩
  | 43 => ⟨S1200000, .i32⟩
  | 44 => ⟨S1200000, .i32⟩
  | 45 => ⟨S1200000, .i32⟩
  | 46 => ⟨S1200000x1, .i32⟩
  | 47 => ⟨S1200000, .f32⟩
  | 48 => ⟨S1200000, .f32⟩
  | 49 => ⟨S1200000x1, .f32⟩
  | 50 => ⟨S_, .i32⟩
  | 51 => ⟨S1200000, .i32⟩
  | 52 => ⟨S1200000, .i1⟩
  | 53 => ⟨S_, .i32⟩
  | 54 => ⟨S1200000, .i32⟩
  | 55 => ⟨S1200000, .i32⟩
  | 56 => ⟨S1200000, .i32⟩
  | 57 => ⟨S1200000x1, .i32⟩
  | 58 => ⟨S1, .i32⟩
  | 59 => ⟨S_, .i32⟩
  | 60 => ⟨S1200000x1, .i32⟩
  | 61 => ⟨S1200000x1, .i1⟩
  | 62 => ⟨S1x1, .i32⟩
  | 63 => ⟨S1200000x1, .i32⟩
  | 64 => ⟨S1200000x1, .i1⟩
  | 65 => ⟨S1200000x1, .i1⟩
  | 66 => ⟨S_, .i1⟩
  | 67 => ⟨S1200000, .i1⟩
  | 68 => ⟨S1200000x64, .f32⟩
  | 69 => ⟨S1200000x64, .i1⟩
  | 70 => ⟨S_, .f32⟩
  | 71 => ⟨S1200000x64, .f32⟩
  | 72 => ⟨S1200000x64, .f32⟩
  | 73 => ⟨S1200000x64, .f32⟩
  | 74 => ⟨S_, .f32⟩
  | 75 => ⟨S600000x64, .f32⟩
  | 76 => ⟨S1200000x1, .i32⟩
  | 77 => ⟨S600000x64, .f32⟩
  | 78 => ⟨S600000x64, .f32⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1, .i32⟩
  | 88 => ⟨S_, .i32⟩
  | 89 => ⟨S1200000x1, .i32⟩
  | 90 => ⟨S1200000x1, .i1⟩
  | 91 => ⟨S1x1, .i32⟩
  | 92 => ⟨S1200000x1, .i32⟩
  | 93 => ⟨S1200000x1, .i1⟩
  | 94 => ⟨S1200000x1, .i1⟩
  | 95 => ⟨S_, .i1⟩
  | 96 => ⟨S1200000, .i1⟩
  | 97 => ⟨S1200000x64, .f32⟩
  | 98 => ⟨S1200000x64, .i1⟩
  | 99 => ⟨S_, .f32⟩
  | 100 => ⟨S1200000x64, .f32⟩
  | 101 => ⟨S1200000x64, .f32⟩
  | 102 => ⟨S1200000x64, .f32⟩
  | 103 => ⟨S_, .f32⟩
  | 104 => ⟨S600000x64, .f32⟩
  | 105 => ⟨S1200000x1, .i32⟩
  | 106 => ⟨S600000x64, .f32⟩
  | 107 => ⟨S600000x64, .f32⟩
  | 108 => ⟨S_, .i32⟩
  | 109 => ⟨S1200000, .i32⟩
  | 110 => ⟨S1200000, .i1⟩
  | 111 => ⟨S_, .i32⟩
  | 112 => ⟨S1200000, .i32⟩
  | 113 => ⟨S1200000, .i32⟩
  | 114 => ⟨S1200000, .i32⟩
  | 115 => ⟨S1200000x1, .i32⟩
  | 116 => ⟨S1, .i32⟩
  | 117 => ⟨S_, .i32⟩
  | 118 => ⟨S1200000x1, .i32⟩
  | 119 => ⟨S1200000x1, .i1⟩
  | 120 => ⟨S1x1, .i32⟩
  | 121 => ⟨S1200000x1, .i32⟩
  | 122 => ⟨S1200000x1, .i1⟩
  | 123 => ⟨S1200000x1, .i1⟩
  | 124 => ⟨S_, .i1⟩
  | 125 => ⟨S1200000, .i1⟩
  | 126 => ⟨S1200000x64, .f32⟩
  | 127 => ⟨S1200000x64, .i1⟩
  | _ => ⟨S600000x64, .f32⟩

abbrev hbmTy0_1 (i : Nat) : BufTy := match i % 128 with
  | 0 => ⟨S_, .f32⟩
  | 1 => ⟨S1200000x64, .f32⟩
  | 2 => ⟨S1200000x64, .f32⟩
  | 3 => ⟨S1200000x64, .f32⟩
  | 4 => ⟨S_, .f32⟩
  | 5 => ⟨S600000x64, .f32⟩
  | 6 => ⟨S1200000x1, .i32⟩
  | 7 => ⟨S600000x64, .f32⟩
  | 8 => ⟨S600000x64, .f32⟩
  | 9 => ⟨S200000x64, .f32⟩
  | 10 => ⟨S400000x64, .f32⟩
  | _ => ⟨S600000x64, .f32⟩

abbrev hbmTy (i : Nat) : BufTy := match i / 128 with
  | 0 => hbmTy0_0 i
  | 1 => hbmTy0_1 i
  | _ => ⟨S600000x64, .f32⟩

abbrev bufTy : (tb : Table) → Fin (tcTables nBuf tb) → BufTy
  | .hbm, ⟨i, _⟩ => hbmTy i
  | .local _ .vmem, ⟨0, _⟩ => ⟨S30000x64, .f32⟩
  | .local _ .vmem, ⟨1, _⟩ => ⟨S30000x64, .f32⟩
  | .local _ .vmem, ⟨2, _⟩ => ⟨S30000x1, .f32⟩
  | .local _ .vmem, ⟨3, _⟩ => ⟨S30000x1, .f32⟩
  | .local _ .vmem, ⟨4, _⟩ => ⟨S30000x64, .f32⟩
  | .local _ .vmem, ⟨5, _⟩ => ⟨S30000x64, .f32⟩
  | .local _ .vmem, ⟨6, _⟩ => ⟨S20000x64, .f32⟩
  | .local _ .vmem, ⟨7, _⟩ => ⟨S20000x64, .f32⟩
  | .local _ .vmem, ⟨8, _⟩ => ⟨S20000x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S30000x64, .f32⟩
  | .local _ .vmem, ⟨13, _⟩ => ⟨S30000x64, .f32⟩
  | .local _ .vmem, ⟨14, _⟩ => ⟨S30000x1, .f32⟩
  | .local _ .vmem, ⟨15, _⟩ => ⟨S30000x1, .f32⟩
  | .local _ .vmem, ⟨16, _⟩ => ⟨S30000x64, .f32⟩
  | .local _ .vmem, ⟨17, _⟩ => ⟨S30000x64, .f32⟩
  | .local _ .vmem, ⟨18, _⟩ => ⟨S20000x64, .f32⟩
  | .local _ .vmem, ⟨19, _⟩ => ⟨S20000x64, .f32⟩
  | .local _ .vmem, ⟨20, _⟩ => ⟨S20000x64, .f32⟩
  | .local _ .vmem, ⟨21, _⟩ => ⟨S20000x64, .f32⟩
  | .local _ .vmem, ⟨22, _⟩ => ⟨S20000x64, .f32⟩
  | .local _ .vmem, ⟨23, _⟩ => ⟨S20000x64, .f32⟩
  | .local _ .vmem, ⟨24, _⟩ => ⟨S30000x64, .f32⟩
  | .local _ .vmem, ⟨25, _⟩ => ⟨S30000x64, .f32⟩
  | .local _ .vmem, ⟨26, _⟩ => ⟨S30000x1, .f32⟩
  | .local _ .vmem, ⟨27, _⟩ => ⟨S30000x1, .f32⟩
  | .local _ .vmem, ⟨28, _⟩ => ⟨S30000x64, .f32⟩
  | .local _ .vmem, ⟨29, _⟩ => ⟨S30000x64, .f32⟩
  | .local _ .vmem, ⟨30, _⟩ => ⟨S20000x64, .f32⟩
  | .local _ .vmem, ⟨31, _⟩ => ⟨S20000x64, .f32⟩
  | .local _ .vmem, ⟨32, _⟩ => ⟨S20000x64, .f32⟩
  | .local _ .vmem, ⟨33, _⟩ => ⟨S20000x64, .f32⟩
  | .local _ .vmem, ⟨34, _⟩ => ⟨S20000x64, .f32⟩
  | .local _ .vmem, ⟨35, _⟩ => ⟨S20000x64, .f32⟩
  | _, _ => ⟨S600000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v33 : Ref sig .tc := ⟨.hbm, 72, rfl⟩
abbrev main_v34 : Ref sig .tc := ⟨.hbm, 73, rfl⟩
abbrev main_cst_9 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v39 : Ref sig .tc := ⟨.hbm, 101, rfl⟩
abbrev main_v40 : Ref sig .tc := ⟨.hbm, 102, rfl⟩
abbrev main_cst_10 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v45 : Ref sig .tc := ⟨.hbm, 130, rfl⟩
abbrev main_v46 : Ref sig .tc := ⟨.hbm, 131, rfl⟩
abbrev main_cst_11 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S30000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S30000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S30000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S30000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S30000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S30000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S20000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S20000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S30000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S30000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S30000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S20000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S20000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S20000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S600000 : S_.BroadcastsInDim S600000 (![] : Fin 0 → Fin S600000.rank)
  bcast_S1200000_S1200000x1_0 : S1200000.BroadcastsInDim S1200000x1 (![0] : Fin 1 → Fin S1200000x1.rank)
  shapeCasts_S1200000_S1200000x1 : S1200000.ShapeCasts S1200000x1
  bcast_S_S1200000x1 : S_.BroadcastsInDim S1200000x1 (![] : Fin 0 → Fin S1200000x1.rank)
  bcast_S1_S1x1_1 : S1.BroadcastsInDim S1x1 (![1] : Fin 1 → Fin S1x1.rank)
  bcast_S1x1_S1200000x1_0_1 : S1x1.BroadcastsInDim S1200000x1 (![0, 1] : Fin 2 → Fin S1200000x1.rank)
  reducesTo_S1200000x1_S1200000_d1 : S1200000x1.ReducesTo [1] S1200000
  h_S_ : 0 < S_.numel
  bcast_S1200000_S1200000x64_0 : S1200000.BroadcastsInDim S1200000x64 (![0] : Fin 1 → Fin S1200000x64.rank)
  bcast_S_S1200000x64 : S_.BroadcastsInDim S1200000x64 (![] : Fin 0 → Fin S1200000x64.rank)
  inb_S30000x64_S30000x64_0_0 : ∀ a, (![0, 0] : Fin 2 → Nat) a + S30000x64.size a ≤ S30000x64.size a
  h_S30000x64 : 0 < S30000x64.numel
  shapeCasts_S30000x64_S30000x64 : S30000x64.ShapeCasts S30000x64
  inb_S30000x1_S30000x1_0_0 : ∀ a, (![0, 0] : Fin 2 → Nat) a + S30000x1.size a ≤ S30000x1.size a
  h_S30000x1 : 0 < S30000x1.numel
  shapeCasts_S30000x1_S30000x1 : S30000x1.ShapeCasts S30000x1
  broadcasts_S30000x1_S30000x64 : S30000x1.Broadcasts S30000x64
  bcast_S_S600000x64 : S_.BroadcastsInDim S600000x64 (![] : Fin 0 → Fin S600000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  slices_S600000x64_S200000x64_0_0 : S600000x64.Slices ![0, 0] S200000x64
  slices_S600000x64_S400000x64_200000_0 : S600000x64.Slices ![200000, 0] S400000x64
  scatter_S600000_S1200000x1_S1200000_n_0_0_1_wf : ScatterDims.WF S600000 S1200000x1 S1200000 [] [0] [0] 1
  gather_S600000_S1200000x1_S1200000_n_0_n_n_0_1_1_wf : GatherDims.WF S600000 S1200000x1 S1200000 [] [0] [] [0] [] 1 ![1]
  gather_S600000x64_S1200000x1_S1200000x64_1_0_n_n_0_1_164_wf : GatherDims.WF S600000x64 S1200000x1 S1200000x64 [1] [0] [] [0] [] 1 ![1, 64]
  scatter_S600000x64_S1200000x1_S1200000x64_1_0_0_1_wf : ScatterDims.WF S600000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S30000x64.size a ≤ S1200000x64.size a
  hwx0_0 : ∀ i : grid0.Coords, EltTy.bits .f32 = 32 ∨ (Rect.block (s := S1200000x64) S30000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S30000x1.size a ≤ S1200000x1.size a
  hwx0_1 : ∀ i : grid0.Coords, EltTy.bits .f32 = 32 ∨ (Rect.block (s := S1200000x1) S30000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S30000x64.size a ≤ S1200000x64.size a
  hwx0_2 : ∀ i : grid0.Coords, EltTy.bits .f32 = 32 ∨ (Rect.block (s := S1200000x64) S30000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S600000x64.size a
  hwx1_0 : ∀ i : grid1.Coords, EltTy.bits .f32 = 32 ∨ (Rect.block (s := S600000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x64.size a ≤ S600000x64.size a
  hwx1_1 : ∀ i : grid1.Coords, EltTy.bits .f32 = 32 ∨ (Rect.block (s := S600000x64) S20000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S600000x64.size a
  hwx1_2 : ∀ i : grid1.Coords, EltTy.bits .f32 = 32 ∨ (Rect.block (s := S600000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S30000x64.size a ≤ S1200000x64.size a
  hwx2_0 : ∀ i : grid2.Coords, EltTy.bits .f32 = 32 ∨ (Rect.block (s := S1200000x64) S30000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S30000x1.size a ≤ S1200000x1.size a
  hwx2_1 : ∀ i : grid2.Coords, EltTy.bits .f32 = 32 ∨ (Rect.block (s := S1200000x1) S30000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S30000x64.size a ≤ S1200000x64.size a
  hwx2_2 : ∀ i : grid2.Coords, EltTy.bits .f32 = 32 ∨ (Rect.block (s := S1200000x64) S30000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S600000x64.size a
  hwx3_0 : ∀ i : grid3.Coords, EltTy.bits .f32 = 32 ∨ (Rect.block (s := S600000x64) S20000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S20000x64.size a ≤ S600000x64.size a
  hwx3_1 : ∀ i : grid3.Coords, EltTy.bits .f32 = 32 ∨ (Rect.block (s := S600000x64) S20000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S20000x64.size a ≤ S600000x64.size a
  hwx3_2 : ∀ i : grid3.Coords, EltTy.bits .f32 = 32 ∨ (Rect.block (s := S600000x64) S20000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S30000x64.size a ≤ S1200000x64.size a
  hwx4_0 : ∀ i : grid4.Coords, EltTy.bits .f32 = 32 ∨ (Rect.block (s := S1200000x64) S30000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S30000x1.size a ≤ S1200000x1.size a
  hwx4_1 : ∀ i : grid4.Coords, EltTy.bits .f32 = 32 ∨ (Rect.block (s := S1200000x1) S30000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S30000x64.size a ≤ S1200000x64.size a
  hwx4_2 : ∀ i : grid4.Coords, EltTy.bits .f32 = 32 ∨ (Rect.block (s := S1200000x64) S30000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S20000x64.size a ≤ S600000x64.size a
  hwx5_0 : ∀ i : grid5.Coords, EltTy.bits .f32 = 32 ∨ (Rect.block (s := S600000x64) S20000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S20000x64.size a ≤ S600000x64.size a
  hwx5_1 : ∀ i : grid5.Coords, EltTy.bits .f32 = 32 ∨ (Rect.block (s := S600000x64) S20000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S20000x64.size a ≤ S600000x64.size a
  hwx5_2 : ∀ i : grid5.Coords, EltTy.bits .f32 = 32 ∨ (Rect.block (s := S600000x64) S20000x64.size (cc5_transform_2 i) (hinb5_2 i)).WholeWords (EltTy.packing .f32)

variable [Facts₀]

def scatter_S600000_S1200000x1_S1200000_n_0_0_1 : ScatterDims S600000 S1200000x1 S1200000 where
  updateWindowDims := []
  insertedWindowDims := [0]
  scatterDimsToOperandDims := [0]
  indexVectorDim := 1
  wf := scatter_S600000_S1200000x1_S1200000_n_0_0_1_wf
def gather_S600000_S1200000x1_S1200000_n_0_n_n_0_1_1 : GatherDims S600000 S1200000x1 S1200000 where
  offsetDims := []
  collapsedSliceDims := [0]
  operandBatchingDims := []
  startIndicesBatchingDims := []
  startIndexMap := [0]
  indexVectorDim := 1
  sliceSizes := ![1]
  wf := gather_S600000_S1200000x1_S1200000_n_0_n_n_0_1_1_wf
def gather_S600000x64_S1200000x1_S1200000x64_1_0_n_n_0_1_164 : GatherDims S600000x64 S1200000x1 S1200000x64 where
  offsetDims := [1]
  collapsedSliceDims := [0]
  operandBatchingDims := []
  startIndicesBatchingDims := []
  startIndexMap := [0]
  indexVectorDim := 1
  sliceSizes := ![1, 64]
  wf := gather_S600000x64_S1200000x1_S1200000x64_1_0_n_n_0_1_164_wf
def scatter_S600000x64_S1200000x1_S1200000x64_1_0_0_1 : ScatterDims S600000x64 S1200000x1 S1200000x64 where
  updateWindowDims := [1]
  insertedWindowDims := [0]
  scatterDimsToOperandDims := [0]
  indexVectorDim := 1
  wf := scatter_S600000x64_S1200000x1_S1200000x64_1_0_0_1_wf

abbrev win0_0 : Pipeline.Window sig grid0 :=
  Pipeline.Window.ofSpec (Memref.whole main_v33) S30000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S30000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S30000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S20000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S30000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S30000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S30000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S20000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S20000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v45) S30000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S30000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46) S30000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v44) S20000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S20000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S20000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S600000x64 : Shape := ⟨2, ![600000, 64]⟩
abbrev S2x1200000 : Shape := ⟨2, ![2, 1200000]⟩
abbrev S1x1200000 : Shape := ⟨2, ![1, 1200000]⟩
abbrev S1200000 : Shape := ⟨1, ![1200000]⟩
abbrev S_ : Shape := ⟨0, ![]⟩
abbrev S600000 : Shape := ⟨1, ![600000]⟩
abbrev S1200000x1 : Shape := ⟨2, ![1200000, 1]⟩
abbrev S1200000x64 : Shape := ⟨2, ![1200000, 64]⟩
abbrev S200000x64 : Shape := ⟨2, ![200000, 64]⟩
abbrev S400000x64 : Shape := ⟨2, ![400000, 64]⟩

abbrev nBuf : Space → Nat
  | .hbm => 105
  | .vmem => 0
  | .smem => 0
  | _ => 0

abbrev bufTy : (tb : Table) → Fin (tcTables nBuf tb) → BufTy
  | .hbm, ⟨0, _⟩ => ⟨S600000x64, .f32⟩
  | .hbm, ⟨1, _⟩ => ⟨S2x1200000, .i32⟩
  | .hbm, ⟨2, _⟩ => ⟨S1x1200000, .i32⟩
  | .hbm, ⟨3, _⟩ => ⟨S1200000, .i32⟩
  | .hbm, ⟨4, _⟩ => ⟨S1x1200000, .i32⟩
  | .hbm, ⟨5, _⟩ => ⟨S1200000, .i32⟩
  | .hbm, ⟨6, _⟩ => ⟨S_, .f32⟩
  | .hbm, ⟨7, _⟩ => ⟨S1200000, .f32⟩
  | .hbm, ⟨8, _⟩ => ⟨S_, .f32⟩
  | .hbm, ⟨9, _⟩ => ⟨S600000, .f32⟩
  | .hbm, ⟨10, _⟩ => ⟨S1200000x1, .i32⟩
  | .hbm, ⟨11, _⟩ => ⟨S600000, .f32⟩
  | .hbm, ⟨12, _⟩ => ⟨S_, .f32⟩
  | .hbm, ⟨13, _⟩ => ⟨S600000, .f32⟩
  | .hbm, ⟨14, _⟩ => ⟨S600000, .i1⟩
  | .hbm, ⟨15, _⟩ => ⟨S_, .f32⟩
  | .hbm, ⟨16, _⟩ => ⟨S600000, .f32⟩
  | .hbm, ⟨17, _⟩ => ⟨S600000, .i1⟩
  | .hbm, ⟨18, _⟩ => ⟨S_, .f32⟩
  | .hbm, ⟨19, _⟩ => ⟨S_, .f32⟩
  | .hbm, ⟨20, _⟩ => ⟨S600000, .f32⟩
  | .hbm, ⟨21, _⟩ => ⟨S600000, .f32⟩
  | .hbm, ⟨22, _⟩ => ⟨S600000, .f32⟩
  | .hbm, ⟨23, _⟩ => ⟨S_, .f32⟩
  | .hbm, ⟨24, _⟩ => ⟨S600000, .f32⟩
  | .hbm, ⟨25, _⟩ => ⟨S600000, .f32⟩
  | .hbm, ⟨26, _⟩ => ⟨S_, .f32⟩
  | .hbm, ⟨27, _⟩ => ⟨S_, .f32⟩
  | .hbm, ⟨28, _⟩ => ⟨S600000, .f32⟩
  | .hbm, ⟨29, _⟩ => ⟨S600000, .f32⟩
  | .hbm, ⟨30, _⟩ => ⟨S_, .i32⟩
  | .hbm, ⟨31, _⟩ => ⟨S1200000, .i32⟩
  | .hbm, ⟨32, _⟩ => ⟨S1200000, .i1⟩
  | .hbm, ⟨33, _⟩ => ⟨S_, .i32⟩
  | .hbm, ⟨34, _⟩ => ⟨S1200000, .i32⟩
  | .hbm, ⟨35, _⟩ => ⟨S1200000, .i32⟩
  | .hbm, ⟨36, _⟩ => ⟨S1200000, .i32⟩
  | .hbm, ⟨37, _⟩ => ⟨S1200000x1, .i32⟩
  | .hbm, ⟨38, _⟩ => ⟨S1200000, .f32⟩
  | .hbm, ⟨39, _⟩ => ⟨S_, .i32⟩
  | .hbm, ⟨40, _⟩ => ⟨S1200000, .i32⟩
  | .hbm, ⟨41, _⟩ => ⟨S1200000, .i1⟩
  | .hbm, ⟨42, _⟩ => ⟨S_, .i32⟩
  | .hbm, ⟨43, _⟩ => ⟨S1200000, .i32⟩
  | .hbm, ⟨44, _⟩ => ⟨S1200000, .i32⟩
  | .hbm, ⟨45, _⟩ => ⟨S1200000, .i32⟩
  | .hbm, ⟨46, _⟩ => ⟨S1200000x1, .i32⟩
  | .hbm, ⟨47, _⟩ => ⟨S1200000, .f32⟩
  | .hbm, ⟨48, _⟩ => ⟨S1200000, .f32⟩
  | .hbm, ⟨49, _⟩ => ⟨S1200000x1, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x64, .f32⟩
  | .hbm, ⟨59, _⟩ => ⟨S1200000x64, .f32⟩
  | .hbm, ⟨60, _⟩ => ⟨S1200000x64, .f32⟩
  | .hbm, ⟨61, _⟩ => ⟨S_, .f32⟩
  | .hbm, ⟨62, _⟩ => ⟨S600000x64, .f32⟩
  | .hbm, ⟨63, _⟩ => ⟨S1200000x1, .i32⟩
  | .hbm, ⟨64, _⟩ => ⟨S600000x64, .f32⟩
  | .hbm, ⟨65, _⟩ => ⟨S600000x64, .f32⟩
  | .hbm, ⟨66, _⟩ => ⟨S1200000x1, .f32⟩
  | .hbm, ⟨67, _⟩ => ⟨S_, .i32⟩
  | .hbm, ⟨68, _⟩ => ⟨S1200000, .i32⟩
  | .hbm, ⟨69, _⟩ => ⟨S1200000, .i1⟩
  | .hbm, ⟨70, _⟩ => ⟨S_, .i32⟩
  | .hbm, ⟨71, _⟩ => ⟨S1200000, .i32⟩
  | .hbm, ⟨72, _⟩ => ⟨S1200000, .i32⟩
  | .hbm, ⟨73, _⟩ => ⟨S1200000, .i32⟩
  | .hbm, ⟨74, _⟩ => ⟨S1200000x1, .i32⟩
  | .hbm, ⟨75, _⟩ => ⟨S1200000x64, .f32⟩
  | .hbm, ⟨76, _⟩ => ⟨S1200000x64, .f32⟩
  | .hbm, ⟨77, _⟩ => ⟨S1200000x64, .f32⟩
  | .hbm, ⟨78, _⟩ => ⟨S_, .f32⟩
  | .hbm, ⟨79, _⟩ => ⟨S600000x64, .f32⟩
  | .hbm, ⟨80, _⟩ => ⟨S1200000x1, .i32⟩
  | .hbm, ⟨81, _⟩ => ⟨S600000x64, .f32⟩
  | .hbm, ⟨82, _⟩ => ⟨S600000x64, .f32⟩
  | .hbm, ⟨83, _⟩ => ⟨S1200000x1, .f32⟩
  | .hbm, ⟨84, _⟩ => ⟨S_, .i32⟩
  | .hbm, ⟨85, _⟩ => ⟨S1200000, .i32⟩
  | .hbm, ⟨86, _⟩ => ⟨S1200000, .i1⟩
  | .hbm, ⟨87, _⟩ => ⟨S_, .i32⟩
  | .hbm, ⟨88, _⟩ => ⟨S1200000, .i32⟩
  | .hbm, ⟨89, _⟩ => ⟨S1200000, .i32⟩
  | .hbm, ⟨90, _⟩ => ⟨S1200000, .i32⟩
  | .hbm, ⟨91, _⟩ => ⟨S1200000x1, .i32⟩
  | .hbm, ⟨92, _⟩ => ⟨S1200000x64, .f32⟩
  | .hbm, ⟨93, _⟩ => ⟨S1200000x64, .f32⟩
  | .hbm, ⟨94, _⟩ => ⟨S1200000x64, .f32⟩
  | .hbm, ⟨95, _⟩ => ⟨S_, .f32⟩
  | .hbm, ⟨96, _⟩ => ⟨S600000x64, .f32⟩
  | .hbm, ⟨97, _⟩ => ⟨S1200000x1, .i32⟩
  | .hbm, ⟨98, _⟩ => ⟨S600000x64, .f32⟩
  | .hbm, ⟨99, _⟩ => ⟨S600000x64, .f32⟩
  | .hbm, ⟨100, _⟩ => ⟨S_, .f32⟩
  | .hbm, ⟨101, _⟩ => ⟨S600000x64, .f32⟩
  | .hbm, ⟨102, _⟩ => ⟨S600000x64, .f32⟩
  | .hbm, ⟨103, _⟩ => ⟨S200000x64, .f32⟩
  | .hbm, ⟨104, _⟩ => ⟨S400000x64, .f32⟩
  | _, _ => ⟨S600000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_12 : Ref sig .tc := ⟨.hbm, 67, rfl⟩
abbrev main_v47 : Ref sig .tc := ⟨.hbm, 68, rfl⟩
abbrev main_v48 : Ref sig .tc := ⟨.hbm, 69, rfl⟩
abbrev main_c_13 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_15 : Ref sig .tc := ⟨.hbm, 84, rfl⟩
abbrev main_v61 : Ref sig .tc := ⟨.hbm, 85, rfl⟩
abbrev main_v62 : Ref sig .tc := ⟨.hbm, 86, rfl⟩
abbrev main_c_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S600000 : S_.BroadcastsInDim S600000 (![] : Fin 0 → Fin S600000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S600000x64 : S_.BroadcastsInDim S600000x64 (![] : Fin 0 → Fin S600000x64.rank)
  slices_S600000x64_S200000x64_0_0 : S600000x64.Slices ![0, 0] S200000x64
  slices_S600000x64_S400000x64_200000_0 : S600000x64.Slices ![200000, 0] S400000x64
  scatter_S600000_S1200000x1_S1200000_n_0_0_1_wf : ScatterDims.WF S600000 S1200000x1 S1200000 [] [0] [0] 1
  gather_S600000_S1200000x1_S1200000_n_0_n_n_0_1_1_wf : GatherDims.WF S600000 S1200000x1 S1200000 [] [0] [] [0] [] 1 ![1]
  gather_S600000x64_S1200000x1_S1200000x64_1_0_n_n_0_1_164_wf : GatherDims.WF S600000x64 S1200000x1 S1200000x64 [1] [0] [] [0] [] 1 ![1, 64]
  scatter_S600000x64_S1200000x1_S1200000x64_1_0_0_1_wf : ScatterDims.WF S600000x64 S1200000x1 S1200000x64 [1] [0] [0] 1

variable [Facts₀]

def scatter_S600000_S1200000x1_S1200000_n_0_0_1 : ScatterDims S600000 S1200000x1 S1200000 where
  updateWindowDims := []
  insertedWindowDims := [0]
  scatterDimsToOperandDims := [0]
  indexVectorDim := 1
  wf := scatter_S600000_S1200000x1_S1200000_n_0_0_1_wf
def gather_S600000_S1200000x1_S1200000_n_0_n_n_0_1_1 : GatherDims S600000 S1200000x1 S1200000 where
  offsetDims := []
  collapsedSliceDims := [0]
  operandBatchingDims := []
  startIndicesBatchingDims := []
  startIndexMap := [0]
  indexVectorDim := 1
  sliceSizes := ![1]
  wf := gather_S600000_S1200000x1_S1200000_n_0_n_n_0_1_1_wf
def gather_S600000x64_S1200000x1_S1200000x64_1_0_n_n_0_1_164 : GatherDims S600000x64 S1200000x1 S1200000x64 where
  offsetDims := [1]
  collapsedSliceDims := [0]
  operandBatchingDims := []
  startIndicesBatchingDims := []
  startIndexMap := [0]
  indexVectorDim := 1
  sliceSizes := ![1, 64]
  wf := gather_S600000x64_S1200000x1_S1200000x64_1_0_n_n_0_1_164_wf
def scatter_S600000x64_S1200000x1_S1200000x64_1_0_0_1 : ScatterDims S600000x64 S1200000x1 S1200000x64 where
  updateWindowDims := [1]
  insertedWindowDims := [0]
  scatterDimsToOperandDims := [0]
  indexVectorDim := 1
  wf := scatter_S600000x64_S1200000x1_S1200000x64_1_0_0_1_wf

class Facts : Prop extends Facts₀ where

variable [Facts]
-- ==== Proof.Spec.lean ====
/-
  The values of LightGCN propagation, named once, for both programs to be read against.

  Over N = 600000 nodes with 64 features each and E = 1200000 edges (source `row e`, target `col e`):
  the in-degree of a node is the number of edges that point at it, `deg n = #{e | col e = n}`; its
  normaliser is `d n = 1 / √(deg n)` where `deg n > 0` and `0` elsewhere; an edge weighs
  `norm e = d (row e) · d (col e)`; one propagation step sends `x` to
  `(step x) n = Σ_{e : col e = n} norm e · x (row e)`; and the result is the mean
  `(x₀ + step x₀ + step² x₀ + step³ x₀) / 4`, cut into its first 200000 rows and the other 400000.

  Both programs compute the degree, the normaliser and the edge weight by the very same operations of the
  index array; those are written here once (`row`, `col`, `wrap`, `invSqrtDeg`, `norm`). They part ways in
  four places, and each side's spelling is named here: how the source rows are fetched (`takeRows`, which
  answers a fill value where the wrapped index leaves `[0, N)`, against the plain `Host.gather`), how a
  fetched row is weighed (`scaleRows`, the fetched row times the weight read from an E×1 column, against the
  weight broadcast along the features times the fetched row), how the running sum takes a step in
  (`accum`, (a + x)·s with s = 1 or s = 1/4, against a + x and a final quotient by 4), and the column the
  weights sit in (a reshape to E×1 against a broadcast to E×1).
-/
import proofs.«419731_j35802847380042_1_alg».proof.KernelIdeal
import proofs.«419731_j35802847380042_1_alg».proof.ReferenceIdeal
import proofs.«419731_j35802847380042_1_alg».proof.Proof.Gen.KernelIdeal
import proofs.«419731_j35802847380042_1_alg».proof.Proof.Gen.ReferenceIdeal
import Idealize.ShloMosaic.PureOps

noncomputable section

namespace Cert.LightGcn

open Idealize.ShloMosaic Cert.KernelIdeal Cert.KernelIdeal.Facts₀

variable {F : FTy → Type} [FloatOps F]

/-! ## What both programs compute alike, from the index array `e : i32[2, E]` -/

/-- The edges' sources: row 0 of the index array. -/
def row (e : IVec S2x1200000 32) : IVec S1200000 32 :=
  shapeCast S1200000 (extractStridedSlice S1x1200000 ![0, 0] e slices_S2x1200000_S1x1200000_0_0) shapeCasts_S1x1200000_S1200000

/-- The edges' targets: row 1 of the index array. -/
def col (e : IVec S2x1200000 32) : IVec S1200000 32 :=
  shapeCast S1200000 (extractStridedSlice S1x1200000 ![1, 0] e slices_S2x1200000_S1x1200000_1_0) shapeCasts_S1x1200000_S1200000

/-- A node index as an indexing operation takes it: a negative one counted from the end (`r + N`), as a column. -/
def wrap (r : IVec S1200000 32) : IVec S1200000x1 32 :=
  broadcastInDim S1200000x1 ![0] bcast_S1200000_S1200000x1_0
    (select (cmpi .slt r (broadcastInDim S1200000 ![] bcast_S_S1200000 (constantI S_ 32 0#32)))
      (addi r (broadcastInDim S1200000 ![] bcast_S_S1200000 (constantI S_ 32 600000#32))) r)

/-- The in-degree of every node: one added per edge at its target. -/
def degree (e : IVec S2x1200000 32) : FVec F S600000 .f32 :=
  Host.scatterAdd scatter_S600000_S1200000x1_S1200000_n_0_0_1
    (broadcastInDim S600000 ![] bcast_S_S600000 (constant S_ .f32 0x00000000#32))
    (broadcastInDim S1200000x1 ![0] bcast_S1200000_S1200000x1_0 (col e))
    (broadcastInDim S1200000 ![] bcast_S_S1200000 (constant S_ .f32 0x3F800000#32))

/-- Where a node has an incoming edge. -/
def hasEdge (e : IVec S2x1200000 32) : IVec S600000 1 :=
  cmpf (F := F) .ogt (degree (F := F) e) (broadcastInDim S600000 ![] bcast_S_S600000 (constant S_ .f32 0x00000000#32))

/-- `1 / √deg` at a node with an incoming edge, `0` at the others. -/
def invSqrtDeg (e : IVec S2x1200000 32) : FVec F S600000 .f32 :=
  select (hasEdge (F := F) e)
    (Host.divf (broadcastInDim S600000 ![] bcast_S_S600000 (constant S_ .f32 0x3F800000#32))
      (Host.sqrt (select (hasEdge (F := F) e) (degree (F := F) e)
        (broadcastInDim S600000 ![] bcast_S_S600000 (id (constant S_ .f32 0x3F800000#32))))))
    (broadcastInDim S600000 ![] bcast_S_S600000 (id (constant S_ .f32 0x00000000#32)))

/-- An edge's weight: the normaliser at its source times the normaliser at its target. -/
def norm (e : IVec S2x1200000 32) : FVec F S1200000 .f32 :=
  mulf (Host.gather gather_S600000_S1200000x1_S1200000_n_0_n_n_0_1_1 (invSqrtDeg (F := F) e) (wrap (row e)))
    (Host.gather gather_S600000_S1200000x1_S1200000_n_0_n_n_0_1_1 (invSqrtDeg (F := F) e) (wrap (col e)))

/-- The rows of `x` at the (wrapped) indices `r`, one row per edge. -/
def gatherRowsAt (x : FVec F S600000x64 .f32) (r : IVec S1200000 32) : FVec F S1200000x64 .f32 :=
  Host.gather gather_S600000x64_S1200000x1_S1200000x64_1_0_n_n_0_1_164 x (wrap r)

/-- The rows of `x` at the edges' (wrapped) sources. -/
def gatherRows (x : FVec F S600000x64 .f32) (e : IVec S2x1200000 32) : FVec F S1200000x64 .f32 :=
  gatherRowsAt x (row e)

/-- The per-edge rows `u` summed, from zero, into the rows the indices `t` name (an index outside `[0, N)` adds nothing). -/
def scatterRowsAt (t : IVec S1200000 32) (u : FVec F S1200000x64 .f32) : FVec F S600000x64 .f32 :=
  Host.scatterAdd scatter_S600000x64_S1200000x1_S1200000x64_1_0_0_1
    (broadcastInDim S600000x64 ![] bcast_S_S600000x64 (constant S_ .f32 0x00000000#32))
    (broadcastInDim S1200000x1 ![0] bcast_S1200000_S1200000x1_0 t) u

/-- The per-edge rows `u` summed into their targets' rows, from zero. -/
def scatterRows (e : IVec S2x1200000 32) (u : FVec F S1200000x64 .f32) : FVec F S600000x64 .f32 :=
  scatterRowsAt (col e) u

/-! ## The kernel's side -/

/-- The edge weights as an E×1 column, by a reshape. -/
def normColumn (e : IVec S2x1200000 32) : FVec F S1200000x1 .f32 :=
  shapeCast S1200000x1 (norm (F := F) e) shapeCasts_S1200000_S1200000x1

/-- Which of the indices `r`, wrapped, lie inside `[0, N)`: one bit per edge, spread along the features. -/
def inRangeAt (r : IVec S1200000 32) : IVec S1200000x64 1 :=
  broadcastInDim S1200000x64 ![0] bcast_S1200000_S1200000x64_0
    (Host.reduce IntOp.andi
      (andi (cmpi .sge (wrap r) (broadcastInDim S1200000x1 ![] bcast_S_S1200000x1 (constantI S_ 32 0#32)))
        (cmpi .sle (wrap r) (broadcastInDim S1200000x1 ![0, 1] bcast_S1x1_S1200000x1_0_1
          (broadcastInDim S1x1 ![1] bcast_S1_S1x1_1 (constantI S1 32 599999#32)))))
      (constantI S_ 1 1#1) reducesTo_S1200000x1_S1200000_d1 h_S_)

/-- The rows of `x` at the indices `r`, a fill value where the wrapped index is out of range. -/
def takeRowsAt (x : FVec F S600000x64 .f32) (r : IVec S1200000 32) : FVec F S1200000x64 .f32 :=
  select (inRangeAt r) (gatherRowsAt x r)
    (broadcastInDim S1200000x64 ![] bcast_S_S1200000x64 (constant S_ .f32 0x7FC00000#32))

/-- The rows of `x` at the edges' sources, a fill value where the source is out of range. -/
def takeRows (x : FVec F S600000x64 .f32) (e : IVec S2x1200000 32) : FVec F S1200000x64 .f32 :=
  takeRowsAt x (row e)

/-- The row an index of an E×64 array sits in, as an index of an E×1 column. -/
def rowOf (i : S1200000x64.Idx) : S1200000x1.Idx := fun a => match a with
  | ⟨0, _⟩ => ⟨(i 0).val, (i 0).isLt⟩
  | ⟨1, _⟩ => ⟨0, Nat.one_pos⟩

/-- Every fetched row times its edge's weight, the weight read from the column. -/
def scaleRows (g : FVec F S1200000x64 .f32) (n : FVec F S1200000x1 .f32) : FVec F S1200000x64 .f32 :=
  fun i => FloatOps.mulf (g i) (n (rowOf i))

/-- `(a + x) · s`, entry by entry, `s` the number the word `w` denotes. -/
def accum (w : BitVec 32) (a x : FVec F S600000x64 .f32) : FVec F S600000x64 .f32 :=
  fun i => FloatOps.mulf (FloatOps.addf (a i) (x i)) (Scalar.ofBits .f32 w)

/-- One propagation step as the kernel takes it. -/
def kStep (e : IVec S2x1200000 32) (x : FVec F S600000x64 .f32) : FVec F S600000x64 .f32 :=
  scatterRows e (scaleRows (takeRows x e) (normColumn (F := F) e))

/-- The kernel's mean of the four layers, before it is cut in two. -/
def kMean (x : FVec F S600000x64 .f32) (e : IVec S2x1200000 32) : FVec F S600000x64 .f32 :=
  accum 0x3E800000#32
    (accum 0x3F800000#32 (accum 0x3F800000#32 x (kStep e x)) (kStep e (kStep e x)))
    (kStep e (kStep e (kStep e x)))

/-! ## The reference's side -/

/-- One propagation step as the reference takes it. -/
def rStep (e : IVec S2x1200000 32) (x : FVec F S600000x64 .f32) : FVec F S600000x64 .f32 :=
  scatterRows e
    (mulf (broadcastInDim S1200000x64 ![0, 1] Cert.ReferenceIdeal.Facts₀.bcast_S1200000x1_S1200000x64_0_1
        (broadcastInDim S1200000x1 ![0] bcast_S1200000_S1200000x1_0 (norm (F := F) e)))
      (gatherRows x e))

/-- The reference's mean of the four layers, before it is cut in two. -/
def rMean (x : FVec F S600000x64 .f32) (e : IVec S2x1200000 32) : FVec F S600000x64 .f32 :=
  Host.divf (addf (addf (addf x (rStep e x)) (rStep e (rStep e x))) (rStep e (rStep e (rStep e x))))
    (broadcastInDim S600000x64 ![] bcast_S_S600000x64 (constant S_ .f32 0x40800000#32))

/-- The users' rows: the first 200000. -/
def users (y : FVec F S600000x64 .f32) : FVec F S200000x64 .f32 :=
  extractStridedSlice S200000x64 ![0, 0] y slices_S600000x64_S200000x64_0_0

/-- The items' rows: the other 400000. -/
def items (y : FVec F S600000x64 .f32) : FVec F S400000x64 .f32 :=
  extractStridedSlice S400000x64 ![200000, 0] y slices_S600000x64_S400000x64_200000_0

end Cert.LightGcn

end
-- ==== Proof.InRange.lean ====
/-
  Under the precondition every edge's source is a node index, so the fill of `takeRows` is never taken.

  The precondition says, beside the finiteness of the embedding, that every entry r of row 0 of the index
  array has 0 ≤ r < 600000 as a signed 32-bit word. Such an r is not negative, so wrapping leaves it as it
  is, and it passes both range tests 0 ≤ r and r ≤ 599999 of the take; the conjunction reduced over the one
  index component is then the true bit at every edge, and the selection keeps the gathered row.
-/
import proofs.«419731_j35802847380042_1_alg».proof.Pre_finite_inputs
import proofs.«419731_j35802847380042_1_alg».proof.Proof.Gen.Pre_finite_inputs
import proofs.«419731_j35802847380042_1_alg».proof.Proof.Spec
import Idealize.ShloMosaic.Lib.ValueIdx
import Idealize.ShloMosaic.Lib.ReduceAll
import Idealize.ShloMosaic.Lib.StableHlo.Predicate

noncomputable section

namespace Cert.LightGcn

open Idealize.ShloMosaic Idealize.ShloMosaic.TcCoe Idealize.SL.Sem Cert.KernelIdeal

variable {F : FTy → Type} [FloatOps F]

/-- The scalar shape has one index only. -/
private instance scalarIdx_subsingleton : Subsingleton Cert.Pre_finite_inputs.S_.Idx :=
  ⟨fun a b => funext fun d => d.elim0⟩

/-- A conjunction folded from the true bit over true bits only is the true bit. -/
private theorem foldl_andi_of_all {ι : Type} (f : ι → BitVec 1) (hf : ∀ n, f n = 1#1) :
    ∀ l : List ι, l.foldl (fun r n => IntOp.andi r (f n)) 1#1 = 1#1
  | [] => rfl
  | n :: l => by
    show l.foldl (fun r n => IntOp.andi r (f n)) (IntOp.andi 1#1 (f n)) = 1#1
    rw [hf n]
    exact foldl_andi_of_all f hf l

/-- A conjunction reduced, from the true bit, over an array of true bits is the true bit at every place. -/
private theorem reduce_andi_of_all {s t u : Shape} {axes : List (Fin s.rank)} (x : s.Idx → BitVec 1)
    (init : u.Idx → BitVec 1) (h : s.ReducesTo axes t) (hu : 0 < u.numel) (hinit : ∀ k, init k = 1#1)
    (hx : ∀ i, x i = 1#1) (j : t.Idx) : Host.reduce IntOp.andi x init h hu j = 1#1 := by
  rw [Host.reduce_eq_foldl, hinit]
  exact foldl_andi_of_all x hx _

/-- A word r with 0 ≤ r < 600000, signed, is below 600000 as a natural number. -/
private theorem toNat_lt_of_range (w : BitVec 32) (h0 : IntOp.cmpi .sge w 0#32 = 1#1)
    (h1 : IntOp.cmpi .slt w 600000#32 = 1#1) : w.toNat < 600000 := by
  unfold IntOp.cmpi at h0 h1
  rw [StableHlo.Predicate.ofBool_eq_one_iff] at h0 h1
  simp only [BitVec.slt, BitVec.sle, decide_eq_true_eq] at h0 h1
  have h32 := w.isLt
  unfold BitVec.toInt at h0 h1
  split at h1 <;> simp at h0 h1 <;> omega

/-- Such a word is left alone by the wrap (it is not negative) and passes both range tests of the take. -/
private theorem word_in_range (w : BitVec 32) (h0 : IntOp.cmpi .sge w 0#32 = 1#1)
    (h1 : IntOp.cmpi .slt w 600000#32 = 1#1) :
    IntOp.andi
      (IntOp.cmpi .sge (Scalar.select (IntOp.cmpi .slt w 0#32) (IntOp.addi w 600000#32) w) 0#32)
      (IntOp.cmpi .sle (Scalar.select (IntOp.cmpi .slt w 0#32) (IntOp.addi w 600000#32) w) 599999#32) = 1#1 := by
  have hw : w.toNat < 600000 := toNat_lt_of_range w h0 h1
  have hw31 : w.toNat < 2 ^ 31 := by omega
  have hneg : ¬ IntOp.cmpi .slt w 0#32 = 1#1 := fun hc => by
    have := (StableHlo.Predicate.slt_iff_toNat hw31 (by decide)).1 hc
    simp at this
  have hsel : Scalar.select (IntOp.cmpi .slt w 0#32) (IntOp.addi w 600000#32) w = w := if_neg hneg
  rw [hsel, h0]
  have hle : IntOp.cmpi .sle w 599999#32 = 1#1 :=
    (StableHlo.Predicate.sle_iff_toNat hw31 (by decide)).2 (by
      show w.toNat ≤ (599999#32 : BitVec 32).toNat
      have : (599999#32 : BitVec 32).toNat = 599999 := by decide
      omega)
  rw [hle]
  rfl

/-- THE PRECONDITION DECODED: every edge's source r has 0 ≤ r and r < 600000, signed. -/
private theorem row_in_range (a : FVec F S600000x64 .f32) (e : IVec S2x1200000 32)
    (hpre : Cert.Pre_finite_inputs.fn (F := F) a e = fun _ => 1#1) (i : S1200000.Idx) :
    IntOp.cmpi .sge (row e i) 0#32 = 1#1 ∧ IntOp.cmpi .slt (row e i) 600000#32 = 1#1 := by
  have h0 := congrFun hpre ValueIdx.ix0
  dsimp only [Cert.Pre_finite_inputs.fn] at h0
  have h1 := (IntOp.andi_eq_one.1 h0).2
  have h2 := Host.reduce_andi_all _ _ _ _ _ h1 i
  exact IntOp.andi_eq_one.1 h2

/-- Indices that all lie in [0, 600000) are all in range once wrapped: the mask is the true bit everywhere. -/
private theorem inRangeAt_eq_one (r : IVec S1200000 32)
    (hr : ∀ i, IntOp.cmpi .sge (r i) 0#32 = 1#1 ∧ IntOp.cmpi .slt (r i) 600000#32 = 1#1) :
    inRangeAt r = fun _ => 1#1 := by
  funext j
  unfold inRangeAt broadcastInDim
  refine reduce_andi_of_all _ _ _ _ (fun _ => rfl) (fun q => ?_) _
  exact word_in_range _ (hr _).1 (hr _).2

/-- Where the precondition holds of an embedding `a` and the index array `e`, taking rows at the edges' sources is
    plainly gathering them. -/
theorem takeRows_eq_gatherRows (a x : FVec F S600000x64 .f32) (e : IVec S2x1200000 32)
    (hpre : Cert.Pre_finite_inputs.fn (F := F) a e = fun _ => 1#1) : takeRows x e = gatherRows x e := by
  unfold takeRows takeRowsAt gatherRows
  rw [inRangeAt_eq_one (row e) (row_in_range a e hpre)]
  funext i
  exact ValueIdx.select_one _ _

end Cert.LightGcn

end
-- ==== Proof.MessageScale.lean ====
/-
  The three weighing passes, each as one function of the arrays it finds.

  A weighing pass runs over the E = 1200000 edges in 40 blocks of 30000 rows: at block t it loads rows
  [30000 t, 30000 (t + 1)) of the fetched rows (30000 × 64) and of the weight column (30000 × 1), multiplies
  each fetched row by its weight, and writes the block back to the same rows of the output. The blocks tile
  the output, every entry depends on the same row of the two inputs, so the output array ends as
  `scaleRows` of the two input arrays as the pass finds them.
-/
import proofs.«419731_j35802847380042_1_alg».proof.Proof.Gen.KernelIdeal.Frame
import proofs.«419731_j35802847380042_1_alg».proof.Proof.Spec
import Idealize.ShloMosaic.Lib.Pipeline.Value
import Idealize.ShloMosaic.Lib.ValueIdx

noncomputable section

namespace Cert.LightGcn

open Idealize.ShloMosaic Idealize.ShloMosaic.TcCoe Idealize.SL.Sem Cert.KernelIdeal

variable {F : FTy → Type} [FloatOps F]

/-! ## What the three passes share -/

/-- A block is loaded and stored whole: both offsets are zero. -/
private theorem zeroOffsets : (![0, 0] : Fin 2 → Nat) = fun _ => 0 := funext fun a => by fin_cases a <;> rfl

/-- One entry of a weighed block: the fetched entry times the weight of its row. The two casts keep the
    shape, so they change nothing; the weight column, spread along the 64 features, is read at column 0
    of the entry's row. -/
private theorem weighBlock_apply (x0 : Vec F S30000x64 .f32) (x1 : Vec F S30000x1 .f32)
    (h0 : S30000x64.ShapeCasts S30000x64) (h1 : S30000x1.ShapeCasts S30000x1) (hb : S30000x1.Broadcasts S30000x64)
    (j : S30000x64.Idx) (k : S30000x1.Idx) (hk0 : (k 0).val = (j 0).val) (hk1 : (k 1).val = 0) :
    mulf (shapeCast S30000x64 x0 h0) (broadcastTo S30000x64 (shapeCast S30000x1 x1 h1) hb) j
      = FloatOps.mulf (x0 j) (x1 k) := by
  show FloatOps.mulf (shapeCast S30000x64 x0 h0 j) (broadcastTo S30000x64 (shapeCast S30000x1 x1 h1) hb j) = _
  rw [shapeCast_self, shapeCast_self, broadcastTo_apply x1 hb j k (fun a => ?_)]
  match a with
  | ⟨0, _⟩ => exact hk0
  | ⟨1, _⟩ => exact hk1

/-- The row of a block entry, as an index of the block's weight column. -/
private def blockRow (j : S30000x64.Idx) : S30000x1.Idx := fun a => match a with
  | ⟨0, _⟩ => ⟨(j 0).val, (j 0).isLt⟩
  | ⟨1, _⟩ => ⟨0, Nat.one_pos⟩

variable (V : (c : Dev nD) → (b : Ref sig .tc) → Buf (Elt F) ((c : Thread nD τ).loc b))

/-! ## Pass 0 -/

/-- At grid point t every window of pass 0 sits at block (t, 0). -/
private theorem blockAt0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is rows [30000 t, 30000 (t + 1)) of the weighed array. -/
private theorem written0 (c : Dev nD) (t : Fin cfg0.N) :
    (Gen.dat0 V c).flushed 2 t = ((cfg0.win 2).blk t).view.read (Elt F) (scaleRows (V c main_v33) (V c main_v32)) := by
  show (cfg0.win 2).cut (grid0.coords t) ((Gen.dat0 V c).after 2 t) = _
  rw [Gen.after0_2]
  unfold Gen.out0_2
  rw [View.canon_unit_zero zeroOffsets]
  simp only [View.ld_unit_zero (S := S30000x64) zeroOffsets, View.ld_unit_zero (S := S30000x1) zeroOffsets]
  obtain ⟨e0, e1, e2, e3, e4, e5⟩ := blockAt0 t
  funext j
  show Gen.k0_pay1 (Gen.iblk0 V c 0 t) (Gen.iblk0 V c 1 t) j = scaleRows (V c main_v33) (V c main_v32) (((cfg0.win 2).blk t).view.emb j)
  unfold Gen.k0_pay1
  refine (weighBlock_apply (Gen.iblk0 V c 0 t) (Gen.iblk0 V c 1 t) _ _ _ j (blockRow j) rfl rfl).trans ?_
  show FloatOps.mulf (V c main_v33 (((cfg0.win 0).blk t).view.emb j)) (V c main_v32 (((cfg0.win 1).blk t).view.emb (blockRow j)))
    = FloatOps.mulf (V c main_v33 (((cfg0.win 2).blk t).view.emb j)) (V c main_v32 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 30000 + 1 * (j 0).val = win0_2.index t (0 : Fin 2) * 30000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (blockRow j) = rowOf (((cfg0.win 2).blk t).view.emb j) := by
    funext a; apply Fin.ext
    match a with
    | ⟨0, _⟩ => show win0_1.index t (0 : Fin 2) * 30000 + 1 * (j 0).val = win0_2.index t (0 : Fin 2) * 30000 + 1 * (j 0).val; omega
    | ⟨1, _⟩ => show win0_1.index t (1 : Fin 2) * 1 + 1 * 0 = 0; omega
  rw [h0, h1]

/-- An entry of the output array lies in point t's block iff each coordinate lies in the block's range. -/
private theorem mem_block0 (t : Fin cfg0.N) (i : S1200000x64.Idx) :
    i ∈ ((cfg0.win 2).blk t).view.set ↔ ∀ a : Fin 2, win0_2.index t a * S30000x64.size a ≤ (i a).val ∧ (i a).val < win0_2.index t a * S30000x64.size a + S30000x64.size a := by
  show i ∈ ((View.whole main_v34).slice (win0_2.rect t)).set ↔ _
  rw [View.set_slice_whole, Rect.mem_set_unit]
  exact Iff.rfl

/-- The 40 blocks tile the output: row r lies in the block of point r / 30000. -/
private theorem tiled0 (i : S1200000x64.Idx) :
    ∃ t : Fin cfg0.N, (cfg0.win 2).flush t = true ∧ i ∈ ((cfg0.win 2).blk t).view.set := by
  have hi0 : (i 0).val < 1200000 := (i 0).isLt
  have hi1 : (i 1).val < 64 := (i 1).isLt
  have hN : cfg0.N = 40 := Gen.N_0
  have ht : (i 0).val / 30000 < cfg0.N := by rw [hN]; omega
  obtain ⟨-, -, -, -, e4, e5⟩ := blockAt0 ⟨(i 0).val / 30000, ht⟩
  refine ⟨⟨(i 0).val / 30000, ht⟩, Gen.flush0_2 _, ?_⟩
  rw [mem_block0]
  intro a
  match a with
  | ⟨0, _⟩ =>
    show win0_2.index ⟨(i 0).val / 30000, ht⟩ (0 : Fin 2) * 30000 ≤ (i 0).val ∧ (i 0).val < win0_2.index ⟨(i 0).val / 30000, ht⟩ (0 : Fin 2) * 30000 + 30000
    rw [e4]; show (i 0).val / 30000 * 30000 ≤ (i 0).val ∧ (i 0).val < (i 0).val / 30000 * 30000 + 30000; omega
  | ⟨1, _⟩ =>
    show win0_2.index ⟨(i 0).val / 30000, ht⟩ (1 : Fin 2) * 64 ≤ (i 1).val ∧ (i 1).val < win0_2.index ⟨(i 0).val / 30000, ht⟩ (1 : Fin 2) * 64 + 64
    rw [e5]; omega

/-- The first pass's output array: the rows fetched from the embedding, weighed. -/
theorem scale0 (c : Dev nD) : (Gen.dat0 V c).arrAt 2 cfg0.N = scaleRows (V c main_v33) (V c main_v32) := by
  exact (Gen.dat0 V c).arrAt_eq_of_cover 2 (scaleRows (V c main_v33) (V c main_v32)) (fun t _ => written0 V c t) (tiled0)

/-! ## Pass 2 -/

/-- At grid point t every window of pass 2 sits at block (t, 0). -/
private theorem blockAt2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is rows [30000 t, 30000 (t + 1)) of the weighed array. -/
private theorem written2 (c : Dev nD) (t : Fin cfg2.N) :
    (Gen.dat2 V c).flushed 2 t = ((cfg2.win 2).blk t).view.read (Elt F) (scaleRows (V c main_v39) (V c main_v32)) := by
  show (cfg2.win 2).cut (grid2.coords t) ((Gen.dat2 V c).after 2 t) = _
  rw [Gen.after2_2]
  unfold Gen.out2_2
  rw [View.canon_unit_zero zeroOffsets]
  simp only [View.ld_unit_zero (S := S30000x64) zeroOffsets, View.ld_unit_zero (S := S30000x1) zeroOffsets]
  obtain ⟨e0, e1, e2, e3, e4, e5⟩ := blockAt2 t
  funext j
  show Gen.k2_pay1 (Gen.iblk2 V c 0 t) (Gen.iblk2 V c 1 t) j = scaleRows (V c main_v39) (V c main_v32) (((cfg2.win 2).blk t).view.emb j)
  unfold Gen.k2_pay1
  refine (weighBlock_apply (Gen.iblk2 V c 0 t) (Gen.iblk2 V c 1 t) _ _ _ j (blockRow j) rfl rfl).trans ?_
  show FloatOps.mulf (V c main_v39 (((cfg2.win 0).blk t).view.emb j)) (V c main_v32 (((cfg2.win 1).blk t).view.emb (blockRow j)))
    = FloatOps.mulf (V c main_v39 (((cfg2.win 2).blk t).view.emb j)) (V c main_v32 (rowOf (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 30000 + 1 * (j 0).val = win2_2.index t (0 : Fin 2) * 30000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (blockRow j) = rowOf (((cfg2.win 2).blk t).view.emb j) := by
    funext a; apply Fin.ext
    match a with
    | ⟨0, _⟩ => show win2_1.index t (0 : Fin 2) * 30000 + 1 * (j 0).val = win2_2.index t (0 : Fin 2) * 30000 + 1 * (j 0).val; omega
    | ⟨1, _⟩ => show win2_1.index t (1 : Fin 2) * 1 + 1 * 0 = 0; omega
  rw [h0, h1]

/-- An entry of the output array lies in point t's block iff each coordinate lies in the block's range. -/
private theorem mem_block2 (t : Fin cfg2.N) (i : S1200000x64.Idx) :
    i ∈ ((cfg2.win 2).blk t).view.set ↔ ∀ a : Fin 2, win2_2.index t a * S30000x64.size a ≤ (i a).val ∧ (i a).val < win2_2.index t a * S30000x64.size a + S30000x64.size a := by
  show i ∈ ((View.whole main_v40).slice (win2_2.rect t)).set ↔ _
  rw [View.set_slice_whole, Rect.mem_set_unit]
  exact Iff.rfl

/-- The 40 blocks tile the output: row r lies in the block of point r / 30000. -/
private theorem tiled2 (i : S1200000x64.Idx) :
    ∃ t : Fin cfg2.N, (cfg2.win 2).flush t = true ∧ i ∈ ((cfg2.win 2).blk t).view.set := by
  have hi0 : (i 0).val < 1200000 := (i 0).isLt
  have hi1 : (i 1).val < 64 := (i 1).isLt
  have hN : cfg2.N = 40 := Gen.N_2
  have ht : (i 0).val / 30000 < cfg2.N := by rw [hN]; omega
  obtain ⟨-, -, -, -, e4, e5⟩ := blockAt2 ⟨(i 0).val / 30000, ht⟩
  refine ⟨⟨(i 0).val / 30000, ht⟩, Gen.flush2_2 _, ?_⟩
  rw [mem_block2]
  intro a
  match a with
  | ⟨0, _⟩ =>
    show win2_2.index ⟨(i 0).val / 30000, ht⟩ (0 : Fin 2) * 30000 ≤ (i 0).val ∧ (i 0).val < win2_2.index ⟨(i 0).val / 30000, ht⟩ (0 : Fin 2) * 30000 + 30000
    rw [e4]; show (i 0).val / 30000 * 30000 ≤ (i 0).val ∧ (i 0).val < (i 0).val / 30000 * 30000 + 30000; omega
  | ⟨1, _⟩ =>
    show win2_2.index ⟨(i 0).val / 30000, ht⟩ (1 : Fin 2) * 64 ≤ (i 1).val ∧ (i 1).val < win2_2.index ⟨(i 0).val / 30000, ht⟩ (1 : Fin 2) * 64 + 64
    rw [e5]; omega

/-- The second pass's output array. -/
theorem scale2 (c : Dev nD) : (Gen.dat2 V c).arrAt 2 cfg2.N = scaleRows (V c main_v39) (V c main_v32) := by
  exact (Gen.dat2 V c).arrAt_eq_of_cover 2 (scaleRows (V c main_v39) (V c main_v32)) (fun t _ => written2 V c t) (tiled2)

/-! ## Pass 4 -/

/-- At grid point t every window of pass 4 sits at block (t, 0). -/
private theorem blockAt4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is rows [30000 t, 30000 (t + 1)) of the weighed array. -/
private theorem written4 (c : Dev nD) (t : Fin cfg4.N) :
    (Gen.dat4 V c).flushed 2 t = ((cfg4.win 2).blk t).view.read (Elt F) (scaleRows (V c main_v45) (V c main_v32)) := by
  show (cfg4.win 2).cut (grid4.coords t) ((Gen.dat4 V c).after 2 t) = _
  rw [Gen.after4_2]
  unfold Gen.out4_2
  rw [View.canon_unit_zero zeroOffsets]
  simp only [View.ld_unit_zero (S := S30000x64) zeroOffsets, View.ld_unit_zero (S := S30000x1) zeroOffsets]
  obtain ⟨e0, e1, e2, e3, e4, e5⟩ := blockAt4 t
  funext j
  show Gen.k4_pay1 (Gen.iblk4 V c 0 t) (Gen.iblk4 V c 1 t) j = scaleRows (V c main_v45) (V c main_v32) (((cfg4.win 2).blk t).view.emb j)
  unfold Gen.k4_pay1
  refine (weighBlock_apply (Gen.iblk4 V c 0 t) (Gen.iblk4 V c 1 t) _ _ _ j (blockRow j) rfl rfl).trans ?_
  show FloatOps.mulf (V c main_v45 (((cfg4.win 0).blk t).view.emb j)) (V c main_v32 (((cfg4.win 1).blk t).view.emb (blockRow j)))
    = FloatOps.mulf (V c main_v45 (((cfg4.win 2).blk t).view.emb j)) (V c main_v32 (rowOf (((cfg4.win 2).blk t).view.emb j)))
  have h0 : ((cfg4.win 0).blk t).view.emb j = ((cfg4.win 2).blk t).view.emb j := by
    funext a; apply Fin.ext
    match a with
    | ⟨0, _⟩ => show win4_0.index t (0 : Fin 2) * 30000 + 1 * (j 0).val = win4_2.index t (0 : Fin 2) * 30000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (blockRow j) = rowOf (((cfg4.win 2).blk t).view.emb j) := by
    funext a; apply Fin.ext
    match a with
    | ⟨0, _⟩ => show win4_1.index t (0 : Fin 2) * 30000 + 1 * (j 0).val = win4_2.index t (0 : Fin 2) * 30000 + 1 * (j 0).val; omega
    | ⟨1, _⟩ => show win4_1.index t (1 : Fin 2) * 1 + 1 * 0 = 0; omega
  rw [h0, h1]

/-- An entry of the output array lies in point t's block iff each coordinate lies in the block's range. -/
private theorem mem_block4 (t : Fin cfg4.N) (i : S1200000x64.Idx) :
    i ∈ ((cfg4.win 2).blk t).view.set ↔ ∀ a : Fin 2, win4_2.index t a * S30000x64.size a ≤ (i a).val ∧ (i a).val < win4_2.index t a * S30000x64.size a + S30000x64.size a := by
  show i ∈ ((View.whole main_v46).slice (win4_2.rect t)).set ↔ _
  rw [View.set_slice_whole, Rect.mem_set_unit]
  exact Iff.rfl

/-- The 40 blocks tile the output: row r lies in the block of point r / 30000. -/
private theorem tiled4 (i : S1200000x64.Idx) :
    ∃ t : Fin cfg4.N, (cfg4.win 2).flush t = true ∧ i ∈ ((cfg4.win 2).blk t).view.set := by
  have hi0 : (i 0).val < 1200000 := (i 0).isLt
  have hi1 : (i 1).val < 64 := (i 1).isLt
  have hN : cfg4.N = 40 := Gen.N_4
  have ht : (i 0).val / 30000 < cfg4.N := by rw [hN]; omega
  obtain ⟨-, -, -, -, e4, e5⟩ := blockAt4 ⟨(i 0).val / 30000, ht⟩
  refine ⟨⟨(i 0).val / 30000, ht⟩, Gen.flush4_2 _, ?_⟩
  rw [mem_block4]
  intro a
  match a with
  | ⟨0, _⟩ =>
    show win4_2.index ⟨(i 0).val / 30000, ht⟩ (0 : Fin 2) * 30000 ≤ (i 0).val ∧ (i 0).val < win4_2.index ⟨(i 0).val / 30000, ht⟩ (0 : Fin 2) * 30000 + 30000
    rw [e4]; show (i 0).val / 30000 * 30000 ≤ (i 0).val ∧ (i 0).val < (i 0).val / 30000 * 30000 + 30000; omega
  | ⟨1, _⟩ =>
    show win4_2.index ⟨(i 0).val / 30000, ht⟩ (1 : Fin 2) * 64 ≤ (i 1).val ∧ (i 1).val < win4_2.index ⟨(i 0).val / 30000, ht⟩ (1 : Fin 2) * 64 + 64
    rw [e5]; omega

/-- The third pass's output array. -/
theorem scale4 (c : Dev nD) : (Gen.dat4 V c).arrAt 2 cfg4.N = scaleRows (V c main_v45) (V c main_v32) := by
  exact (Gen.dat4 V c).arrAt_eq_of_cover 2 (scaleRows (V c main_v45) (V c main_v32)) (fun t _ => written4 V c t) (tiled4)

end Cert.LightGcn

end
-- ==== Proof.Accumulate.lean ====
/-
  The three accumulating passes, each as one function of the arrays it finds.

  An accumulating pass runs over the N = 600000 nodes in 30 blocks of 20000 rows: at block t it loads rows
  [20000 t, 20000 (t + 1)) of the running sum and of the new layer, adds them, multiplies by a constant
  (1 in the first two passes, 1/4 in the last) and writes the block back to the same rows of the output.
  The blocks tile the output and every entry depends on the same entry of the two inputs, so the output
  array ends as `accum` of the two input arrays as the pass finds them.

  Each pass is read in four steps. (1) What the body stores is, entry by entry, (a + x) · s of the two
  loaded blocks. (2) All three windows of a pass move together: at point t each sits at block row t and
  block column 0, so entry (p, q) of any of the three blocks is entry (20000 t + p, q) of its array; hence
  what point t writes back is block t of `accum` of the two input arrays. (3) Row r of the output lies in
  the block of point r / 20000, so the 30 blocks cover the array. (4) An array whose every written block is
  that block of one function, and whose blocks cover it, ends holding that function.
-/
import proofs.«419731_j35802847380042_1_alg».proof.Proof.Gen.KernelIdeal.Frame
import proofs.«419731_j35802847380042_1_alg».proof.Proof.Spec
import Idealize.ShloMosaic.Lib.Pipeline.Value
import Idealize.ShloMosaic.Lib.ValueIdx

noncomputable section

namespace Cert.LightGcn

open Idealize.ShloMosaic Idealize.ShloMosaic.TcCoe Idealize.SL.Sem Cert.KernelIdeal

variable {F : FTy → Type} [FloatOps F]
variable (V : (c : Dev nD) → (b : Ref sig .tc) → Buf (Elt F) ((c : Thread nD τ).loc b))

/-! ## What the three passes share -/

/-- The body's one store starts at the block's corner: offset (0, 0) is the zero offset. -/
private theorem cornerOffset : (![0, 0] : Fin 2 → Nat) = fun _ => 0 := funext fun a => by fin_cases a <;> rfl

/-- A block-wide sum times a constant spread over the block is, entry by entry, (a + x) · s. -/
private theorem addThenScale_eq (w : BitVec 32) (a x : Vec F S20000x64 .f32) :
    mulf (addf a x) (broadcast S20000x64 (Scalar.ofBits .f32 w))
      = fun j => FloatOps.mulf (FloatOps.addf (a j) (x j)) (Scalar.ofBits .f32 w) := rfl

/-! ## The first pass: the embedding plus the first layer, times 1 -/

/-- What the first pass stores: (a + x) · 1 entry by entry (re-laying a block in its own shape changes nothing). -/
private theorem stored1_eq (a x : Vec F S20000x64 .f32) :
    Gen.k1_pay1 a x = fun j => FloatOps.mulf (FloatOps.addf (a j) (x j)) (Scalar.ofBits .f32 0x3F800000#32) := by
  unfold Gen.k1_pay1
  simp only [shapeCast_self]
  exact addThenScale_eq 0x3F800000#32 a x

/-- At point t all three windows of the first pass sit at block row t, block column 0. -/
private theorem blockAt1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point t of the first pass writes back is block t of `accum` of the two arrays the pass finds: entry
    (p, q) of each input block and of the output block is entry (20000 t + p, q) of its array. -/
private theorem writtenBack1 (c : Dev nD) (t : Fin cfg1.N) :
    (Gen.dat1 V c).flushed 2 t
      = ((cfg1.win 2).blk t).view.read (Elt F) (accum 0x3F800000#32 (V c main_arg0) (V c main_v37)) := by
  show (cfg1.win 2).cut (grid1.coords t) ((Gen.dat1 V c).after 2 t) = _
  rw [Gen.after1_2]
  unfold Gen.out1_2
  rw [View.canon_unit_zero cornerOffset]
  simp only [View.ld_unit_zero (S := S20000x64) cornerOffset]
  rw [stored1_eq]
  obtain ⟨e0, e1, e2, e3, e4, e5⟩ := blockAt1 t
  funext j
  show FloatOps.mulf (FloatOps.addf (V c main_arg0 (((cfg1.win 0).blk t).view.emb j)) (V c main_v37 (((cfg1.win 1).blk t).view.emb j))) (Scalar.ofBits .f32 0x3F800000#32)
     = FloatOps.mulf (FloatOps.addf (V c main_arg0 (((cfg1.win 2).blk t).view.emb j)) (V c main_v37 (((cfg1.win 2).blk t).view.emb j))) (Scalar.ofBits .f32 0x3F800000#32)
  have h0 : ((cfg1.win 0).blk t).view.emb j = ((cfg1.win 2).blk t).view.emb j := by
    funext a; apply Fin.ext
    match a with
    | ⟨0, _⟩ => show win1_0.index t (0 : Fin 2) * 20000 + 1 * (j 0).val = win1_2.index t (0 : Fin 2) * 20000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 20000 + 1 * (j 0).val = win1_2.index t (0 : Fin 2) * 20000 + 1 * (j 0).val; omega
    | ⟨1, _⟩ => show win1_1.index t (1 : Fin 2) * 64 + 1 * (j 1).val = win1_2.index t (1 : Fin 2) * 64 + 1 * (j 1).val; omega
  rw [h0, h1]

/-- An entry of the first pass's output is in point t's block iff each coordinate is in the block's range. -/
private theorem inBlock1 (t : Fin cfg1.N) (i : S600000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v38).slice (win1_2.rect t)).set ↔ _
  rw [View.set_slice_whole, Rect.mem_set_unit]
  exact Iff.rfl

/-- The 30 blocks tile the first pass's output: row r lies in the block of point r / 20000. -/
private theorem covered1 (i : S600000x64.Idx) :
    ∃ t : Fin cfg1.N, (cfg1.win 2).flush t = true ∧ i ∈ ((cfg1.win 2).blk t).view.set := by
  have hi0 : (i 0).val < 600000 := (i 0).isLt
  have hi1 : (i 1).val < 64 := (i 1).isLt
  have hN : cfg1.N = 30 := Gen.N_1
  let t : Fin cfg1.N := ⟨(i 0).val / 20000, by rw [hN]; omega⟩
  obtain ⟨e0, e1, e2, e3, e4, e5⟩ := blockAt1 t
  have ht : t.val = (i 0).val / 20000 := rfl
  refine ⟨t, Gen.flush1_2 t, ?_⟩
  rw [inBlock1]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-- The first accumulating pass: the embedding plus the first layer. -/
theorem accum1 (c : Dev nD) : (Gen.dat1 V c).arrAt 2 cfg1.N = accum 0x3F800000#32 (V c main_arg0) (V c main_v37) :=
  (Gen.dat1 V c).arrAt_eq_of_cover 2 (accum 0x3F800000#32 (V c main_arg0) (V c main_v37))
    (fun t _ => writtenBack1 V c t) covered1

/-! ## The second pass: the running sum plus the second layer, times 1 -/

/-- What the second pass stores: (a + x) · 1 entry by entry. -/
private theorem stored3_eq (a x : Vec F S20000x64 .f32) :
    Gen.k3_pay1 a x = fun j => FloatOps.mulf (FloatOps.addf (a j) (x j)) (Scalar.ofBits .f32 0x3F800000#32) := by
  unfold Gen.k3_pay1
  simp only [shapeCast_self]
  exact addThenScale_eq 0x3F800000#32 a x

/-- At point t all three windows of the second pass sit at block row t, block column 0. -/
private theorem blockAt3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0 :=
  (by decide +kernel : ∀ t : Fin grid3.N, _)

/-- What point t of the second pass writes back is block t of `accum` of the two arrays the pass finds. -/
private theorem writtenBack3 (c : Dev nD) (t : Fin cfg3.N) :
    (Gen.dat3 V c).flushed 2 t
      = ((cfg3.win 2).blk t).view.read (Elt F) (accum 0x3F800000#32 (V c main_v38) (V c main_v43)) := by
  show (cfg3.win 2).cut (grid3.coords t) ((Gen.dat3 V c).after 2 t) = _
  rw [Gen.after3_2]
  unfold Gen.out3_2
  rw [View.canon_unit_zero cornerOffset]
  simp only [View.ld_unit_zero (S := S20000x64) cornerOffset]
  rw [stored3_eq]
  obtain ⟨e0, e1, e2, e3, e4, e5⟩ := blockAt3 t
  funext j
  show FloatOps.mulf (FloatOps.addf (V c main_v38 (((cfg3.win 0).blk t).view.emb j)) (V c main_v43 (((cfg3.win 1).blk t).view.emb j))) (Scalar.ofBits .f32 0x3F800000#32)
     = FloatOps.mulf (FloatOps.addf (V c main_v38 (((cfg3.win 2).blk t).view.emb j)) (V c main_v43 (((cfg3.win 2).blk t).view.emb j))) (Scalar.ofBits .f32 0x3F800000#32)
  have h0 : ((cfg3.win 0).blk t).view.emb j = ((cfg3.win 2).blk t).view.emb j := by
    funext a; apply Fin.ext
    match a with
    | ⟨0, _⟩ => show win3_0.index t (0 : Fin 2) * 20000 + 1 * (j 0).val = win3_2.index t (0 : Fin 2) * 20000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 20000 + 1 * (j 0).val = win3_2.index t (0 : Fin 2) * 20000 + 1 * (j 0).val; omega
    | ⟨1, _⟩ => show win3_1.index t (1 : Fin 2) * 64 + 1 * (j 1).val = win3_2.index t (1 : Fin 2) * 64 + 1 * (j 1).val; omega
  rw [h0, h1]

/-- An entry of the second pass's output is in point t's block iff each coordinate is in the block's range. -/
private theorem inBlock3 (t : Fin cfg3.N) (i : S600000x64.Idx) :
    i ∈ ((cfg3.win 2).blk t).view.set ↔ ∀ a : Fin 2, win3_2.index t a * S20000x64.size a ≤ (i a).val ∧ (i a).val < win3_2.index t a * S20000x64.size a + S20000x64.size a := by
  show i ∈ ((View.whole main_v44).slice (win3_2.rect t)).set ↔ _
  rw [View.set_slice_whole, Rect.mem_set_unit]
  exact Iff.rfl

/-- The 30 blocks tile the second pass's output: row r lies in the block of point r / 20000. -/
private theorem covered3 (i : S600000x64.Idx) :
    ∃ t : Fin cfg3.N, (cfg3.win 2).flush t = true ∧ i ∈ ((cfg3.win 2).blk t).view.set := by
  have hi0 : (i 0).val < 600000 := (i 0).isLt
  have hi1 : (i 1).val < 64 := (i 1).isLt
  have hN : cfg3.N = 30 := Gen.N_3
  let t : Fin cfg3.N := ⟨(i 0).val / 20000, by rw [hN]; omega⟩
  obtain ⟨e0, e1, e2, e3, e4, e5⟩ := blockAt3 t
  have ht : t.val = (i 0).val / 20000 := rfl
  refine ⟨t, Gen.flush3_2 t, ?_⟩
  rw [inBlock3]
  intro a
  match a with
  | ⟨0, _⟩ => show win3_2.index t (0 : Fin 2) * 20000 ≤ (i 0).val ∧ (i 0).val < win3_2.index t (0 : Fin 2) * 20000 + 20000; omega
  | ⟨1, _⟩ => show win3_2.index t (1 : Fin 2) * 64 ≤ (i 1).val ∧ (i 1).val < win3_2.index t (1 : Fin 2) * 64 + 64; omega

/-- The second accumulating pass. -/
theorem accum3 (c : Dev nD) : (Gen.dat3 V c).arrAt 2 cfg3.N = accum 0x3F800000#32 (V c main_v38) (V c main_v43) :=
  (Gen.dat3 V c).arrAt_eq_of_cover 2 (accum 0x3F800000#32 (V c main_v38) (V c main_v43))
    (fun t _ => writtenBack3 V c t) covered3

/-! ## The last pass: the running sum plus the third layer, times 1/4 -/

/-- What the last pass stores: (a + x) · 1/4 entry by entry. -/
private theorem stored5_eq (a x : Vec F S20000x64 .f32) :
    Gen.k5_pay1 a x = fun j => FloatOps.mulf (FloatOps.addf (a j) (x j)) (Scalar.ofBits .f32 0x3E800000#32) := by
  unfold Gen.k5_pay1
  simp only [shapeCast_self]
  exact addThenScale_eq 0x3E800000#32 a x

/-- At point t all three windows of the last pass sit at block row t, block column 0. -/
private theorem blockAt5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0 :=
  (by decide +kernel : ∀ t : Fin grid5.N, _)

/-- What point t of the last pass writes back is block t of `accum` of the two arrays the pass finds. -/
private theorem writtenBack5 (c : Dev nD) (t : Fin cfg5.N) :
    (Gen.dat5 V c).flushed 2 t
      = ((cfg5.win 2).blk t).view.read (Elt F) (accum 0x3E800000#32 (V c main_v44) (V c main_v49)) := by
  show (cfg5.win 2).cut (grid5.coords t) ((Gen.dat5 V c).after 2 t) = _
  rw [Gen.after5_2]
  unfold Gen.out5_2
  rw [View.canon_unit_zero cornerOffset]
  simp only [View.ld_unit_zero (S := S20000x64) cornerOffset]
  rw [stored5_eq]
  obtain ⟨e0, e1, e2, e3, e4, e5⟩ := blockAt5 t
  funext j
  show FloatOps.mulf (FloatOps.addf (V c main_v44 (((cfg5.win 0).blk t).view.emb j)) (V c main_v49 (((cfg5.win 1).blk t).view.emb j))) (Scalar.ofBits .f32 0x3E800000#32)
     = FloatOps.mulf (FloatOps.addf (V c main_v44 (((cfg5.win 2).blk t).view.emb j)) (V c main_v49 (((cfg5.win 2).blk t).view.emb j))) (Scalar.ofBits .f32 0x3E800000#32)
  have h0 : ((cfg5.win 0).blk t).view.emb j = ((cfg5.win 2).blk t).view.emb j := by
    funext a; apply Fin.ext
    match a with
    | ⟨0, _⟩ => show win5_0.index t (0 : Fin 2) * 20000 + 1 * (j 0).val = win5_2.index t (0 : Fin 2) * 20000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 20000 + 1 * (j 0).val = win5_2.index t (0 : Fin 2) * 20000 + 1 * (j 0).val; omega
    | ⟨1, _⟩ => show win5_1.index t (1 : Fin 2) * 64 + 1 * (j 1).val = win5_2.index t (1 : Fin 2) * 64 + 1 * (j 1).val; omega
  rw [h0, h1]

/-- An entry of the last pass's output is in point t's block iff each coordinate is in the block's range. -/
private theorem inBlock5 (t : Fin cfg5.N) (i : S600000x64.Idx) :
    i ∈ ((cfg5.win 2).blk t).view.set ↔ ∀ a : Fin 2, win5_2.index t a * S20000x64.size a ≤ (i a).val ∧ (i a).val < win5_2.index t a * S20000x64.size a + S20000x64.size a := by
  show i ∈ ((View.whole main_v50).slice (win5_2.rect t)).set ↔ _
  rw [View.set_slice_whole, Rect.mem_set_unit]
  exact Iff.rfl

/-- The 30 blocks tile the last pass's output: row r lies in the block of point r / 20000. -/
private theorem covered5 (i : S600000x64.Idx) :
    ∃ t : Fin cfg5.N, (cfg5.win 2).flush t = true ∧ i ∈ ((cfg5.win 2).blk t).view.set := by
  have hi0 : (i 0).val < 600000 := (i 0).isLt
  have hi1 : (i 1).val < 64 := (i 1).isLt
  have hN : cfg5.N = 30 := Gen.N_5
  let t : Fin cfg5.N := ⟨(i 0).val / 20000, by rw [hN]; omega⟩
  obtain ⟨e0, e1, e2, e3, e4, e5⟩ := blockAt5 t
  have ht : t.val = (i 0).val / 20000 := rfl
  refine ⟨t, Gen.flush5_2 t, ?_⟩
  rw [inBlock5]
  intro a
  match a with
  | ⟨0, _⟩ => show win5_2.index t (0 : Fin 2) * 20000 ≤ (i 0).val ∧ (i 0).val < win5_2.index t (0 : Fin 2) * 20000 + 20000; omega
  | ⟨1, _⟩ => show win5_2.index t (1 : Fin 2) * 64 ≤ (i 1).val ∧ (i 1).val < win5_2.index t (1 : Fin 2) * 64 + 64; omega

/-- The last accumulating pass, which also takes the mean. -/
theorem accum5 (c : Dev nD) : (Gen.dat5 V c).arrAt 2 cfg5.N = accum 0x3E800000#32 (V c main_v44) (V c main_v49) :=
  (Gen.dat5 V c).arrAt_eq_of_cover 2 (accum 0x3E800000#32 (V c main_v44) (V c main_v49))
    (fun t _ => writtenBack5 V c t) covered5

end Cert.LightGcn

end
-- ==== Proof.FoldFirst.lean ====
/-
  The kernel program's buffers after its first layer, read off the run's boundary contents.

  The run's contents at each boundary are a fold from the launch memory: a stretch of host operations
  applies them, a pass leaves its output array at what its blocks wrote and everything else as it was.
  Read back through the first nine boundaries: the sources, the targets and the weight column are the
  index array's (no later step writes them), the first layer is one kernel step of the embedding and the
  running sum is the embedding plus that layer.
-/
import proofs.«419731_j35802847380042_1_alg».proof.Proof.Gen.KernelIdeal.Frame
import proofs.«419731_j35802847380042_1_alg».proof.Proof.Spec
import proofs.«419731_j35802847380042_1_alg».proof.Proof.MessageScale
import proofs.«419731_j35802847380042_1_alg».proof.Proof.Accumulate
import Idealize.ShloMosaic.Lib.StableHlo.Run

noncomputable section

namespace Cert.LightGcn

open Idealize.ShloMosaic Idealize.ShloMosaic.TcCoe Idealize.SL.Sem Cert.KernelIdeal Cert.KernelIdeal.Gen

variable {F : FTy → Type} [FloatOps F]
/-! ## Typed references: moving contents to a buffer's own type and back changes nothing -/

section Casts
variable {T : BufTy}

/-- Contents moved to a typed reference's buffer type and back are the contents they were. -/
private theorem ofBuf_toBuf (x : StableHlo.TRef sig T) (v : T.Contents (Elt F)) : x.ofBuf (x.toBuf v) = v := by
  obtain ⟨r, h, h2, h3⟩ := x
  subst h
  rfl

/-- At a literal reference the move is the identity: the buffer's type is the value's by computation. -/
private theorem ofBuf_main_v1 (h1 h2 h3) (v : (main_v1 : Ref sig .tc).ty.Contents (Elt F)) :
    (StableHlo.TRef.of (T := ⟨S1200000, .i32⟩) main_v1 h1 h2 h3).ofBuf v = v := rfl
private theorem ofBuf_main_arg0 (h1 h2 h3) (v : (main_arg0 : Ref sig .tc).ty.Contents (Elt F)) :
    (StableHlo.TRef.of (T := ⟨S600000x64, .f32⟩) main_arg0 h1 h2 h3).ofBuf v = v := rfl
private theorem toBuf_main_v33 (h1 h2 h3) (v : (⟨S1200000x64, .f32⟩ : BufTy).Contents (Elt F)) :
    (StableHlo.TRef.of (T := ⟨S1200000x64, .f32⟩) main_v33 h1 h2 h3).toBuf v = v := rfl
end Casts

/-- A buffer that no operation of a stretch of host operations writes holds after it what it held before: the
    goal `after ops V b = V b`, each operation's written buffer told apart from `b` by its reference. -/
local macro "carried" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## What each stretch of host operations computes, from any contents `V`

Each value is read off the stretch's operations in order: an operation's result buffer holds its function of
its operands' buffers, every other buffer what it held. -/

section Stretches
variable (V : Valuation τ sig (Elt F))

/-- The first stretch slices the index array into sources … -/
private theorem ops0_row : StableHlo.after (hostOps0 : List (HloOp τ sig (Elt F))) V (Proc.devRef .tc main_v1)
    = row (V (Proc.devRef .tc main_arg1)) := by
  unfold row; after_results <;> rfl

/-- … and targets, … -/
private theorem ops0_col : StableHlo.after (hostOps0 : List (HloOp τ sig (Elt F))) V (Proc.devRef .tc main_v3)
    = col (V (Proc.devRef .tc main_arg1)) := by
  unfold col; after_results <;> rfl

/-- … counts the in-degrees, … -/
private theorem ops0_degree : StableHlo.after (hostOps0 : List (HloOp τ sig (Elt F))) V (Proc.devRef .tc main_v7)
    = degree (F := F) (V (Proc.devRef .tc main_arg1)) := by
  unfold degree col; after_results <;> rfl

/-- … marks the nodes with an incoming edge (twice: one copy for each of the two selections to come), … -/
private theorem ops0_hasEdge9 : StableHlo.after (hostOps0 : List (HloOp τ sig (Elt F))) V (Proc.devRef .tc main_v9)
    = hasEdge (F := F) (V (Proc.devRef .tc main_arg1)) := by
  unfold hasEdge degree col; after_results <;> rfl

private theorem ops0_hasEdge11 : StableHlo.after (hostOps0 : List (HloOp τ sig (Elt F))) V (Proc.devRef .tc main_v11)
    = hasEdge (F := F) (V (Proc.devRef .tc main_arg1)) := by
  unfold hasEdge degree col; after_results <;> rfl

/-- … and leaves the constant one behind. -/
private theorem ops0_one : StableHlo.after (hostOps0 : List (HloOp τ sig (Elt F))) V (Proc.devRef .tc main_cst_3)
    = constant (F := F) S_ .f32 0x3F800000#32 := by
  after_results <;> rfl

/-- The second stretch (a selection): the degree where there is an edge, one elsewhere. -/
private theorem ops0_1_sel : StableHlo.after (hostOps0_1 : List (HloOp τ sig (Elt F))) V (Proc.devRef .tc main_v12)
    = select (V (Proc.devRef .tc main_v11)) (V (Proc.devRef .tc main_v7))
        (broadcastInDim S600000 ![] bcast_S_S600000 (id (V (Proc.devRef .tc main_cst_3)))) := by
  after_results <;> rfl

/-- The third stretch: one over the square root of that, and the constant zero left behind. -/
private theorem ops0_2_div : StableHlo.after (hostOps0_2 : List (HloOp τ sig (Elt F))) V (Proc.devRef .tc main_v15)
    = Host.divf (broadcastInDim S600000 ![] bcast_S_S600000 (constant (F := F) S_ .f32 0x3F800000#32))
        (Host.sqrt (V (Proc.devRef .tc main_v12))) := by
  after_results <;> rfl

private theorem ops0_2_zero : StableHlo.after (hostOps0_2 : List (HloOp τ sig (Elt F))) V (Proc.devRef .tc main_cst_5)
    = constant (F := F) S_ .f32 0x00000000#32 := by
  after_results <;> rfl

/-- The fourth stretch (a selection): that quotient where there is an edge, zero elsewhere. -/
private theorem ops0_3_sel : StableHlo.after (hostOps0_3 : List (HloOp τ sig (Elt F))) V (Proc.devRef .tc main_v16)
    = select (V (Proc.devRef .tc main_v9)) (V (Proc.devRef .tc main_v15))
        (broadcastInDim S600000 ![] bcast_S_S600000 (id (V (Proc.devRef .tc main_cst_5)))) := by
  after_results <;> rfl

/-- The fifth stretch: the normaliser fetched at the wrapped sources and at the wrapped targets, the two multiplied,
    the product reshaped to a column. -/
private theorem ops0_4_col : StableHlo.after (hostOps0_4 : List (HloOp τ sig (Elt F))) V (Proc.devRef .tc main_v32)
    = shapeCast S1200000x1
        (mulf (Host.gather gather_S600000_S1200000x1_S1200000_n_0_n_n_0_1_1 (V (Proc.devRef .tc main_v16)) (wrap (V (Proc.devRef .tc main_v1))))
          (Host.gather gather_S600000_S1200000x1_S1200000_n_0_n_n_0_1_1 (V (Proc.devRef .tc main_v16)) (wrap (V (Proc.devRef .tc main_v3)))))
        shapeCasts_S1200000_S1200000x1 := by
  unfold wrap; after_results_simp <;> rfl

/-- The sixth stretch (the fetch with a fill value): the rows of the embedding at the sources. -/
private theorem ops0_5_take : StableHlo.after (hostOps0_5 : List (HloOp τ sig (Elt F))) V (Proc.devRef .tc main_v33)
    = takeRowsAt (V (Proc.devRef .tc main_arg0)) (V (Proc.devRef .tc main_v1)) := by
  unfold takeRowsAt inRangeAt gatherRowsAt wrap
  after_results_simp
  simp only [ofBuf_toBuf, ofBuf_main_v1, ofBuf_main_arg0, toBuf_main_v33]

/-- The stretch between the two passes: the weighed rows summed into their targets' rows, from zero. -/
private theorem ops1_scatter : StableHlo.after (hostOps1 : List (HloOp τ sig (Elt F))) V (Proc.devRef .tc main_v37)
    = scatterRowsAt (V (Proc.devRef .tc main_v3)) (V (Proc.devRef .tc main_v34)) := by
  unfold scatterRowsAt; after_results <;> rfl

end Stretches

variable (m : (ℓ : Loc nD τ sig) → Buf (Elt F) ℓ) (ρ : Dev nD → PrngReg)

/-! ## The run's boundaries, read back to the launch memory -/

/-- Before the first pass's fetch the sources are row 0 of the index array: the first stretch computes them and the
    next four write other buffers. -/
private theorem W5_row (c : Dev nD) : W5 m ρ c (Proc.devRef .tc main_v1) = row (m ((c : Thread nD τ).loc main_arg1)) :=
  calc W5 m ρ c (Proc.devRef .tc main_v1)
    _ = W4 m ρ c (Proc.devRef .tc main_v1) := by carried hostOps0_4
    _ = W3 m ρ c (Proc.devRef .tc main_v1) := by carried hostOps0_3
    _ = W2 m ρ c (Proc.devRef .tc main_v1) := by carried hostOps0_2
    _ = W1 m ρ c (Proc.devRef .tc main_v1) := by carried hostOps0_1
    _ = row (m ((c : Thread nD τ).loc main_arg1)) := ops0_row (W0 m ρ c)

/-- … and the targets its row 1. -/
private theorem W5_col (c : Dev nD) : W5 m ρ c (Proc.devRef .tc main_v3) = col (m ((c : Thread nD τ).loc main_arg1)) :=
  calc W5 m ρ c (Proc.devRef .tc main_v3)
    _ = W4 m ρ c (Proc.devRef .tc main_v3) := by carried hostOps0_4
    _ = W3 m ρ c (Proc.devRef .tc main_v3) := by carried hostOps0_3
    _ = W2 m ρ c (Proc.devRef .tc main_v3) := by carried hostOps0_2
    _ = W1 m ρ c (Proc.devRef .tc main_v3) := by carried hostOps0_1
    _ = col (m ((c : Thread nD τ).loc main_arg1)) := ops0_col (W0 m ρ c)

/-- No host operation before the first pass writes the embedding. -/
private theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by carried hostOps0_4
    _ = W3 m ρ c (Proc.devRef .tc main_arg0) := by carried hostOps0_3
    _ = W2 m ρ c (Proc.devRef .tc main_arg0) := by carried hostOps0_2
    _ = W1 m ρ c (Proc.devRef .tc main_arg0) := by carried hostOps0_1
    _ = W0 m ρ c (Proc.devRef .tc main_arg0) := by carried hostOps0
    _ = m ((c : Thread nD τ).loc main_arg0) := rfl

/-- After the second stretch: the degree where a node has an incoming edge, one elsewhere. -/
private theorem W2_safeDeg (c : Dev nD) : W2 m ρ c (Proc.devRef .tc main_v12)
    = select (hasEdge (F := F) (m ((c : Thread nD τ).loc main_arg1))) (degree (F := F) (m ((c : Thread nD τ).loc main_arg1)))
        (broadcastInDim S600000 ![] bcast_S_S600000 (id (constant (F := F) S_ .f32 0x3F800000#32))) := by
  have h11 : W1 m ρ c (Proc.devRef .tc main_v11) = hasEdge (F := F) (m ((c : Thread nD τ).loc main_arg1)) :=
    ops0_hasEdge11 (W0 m ρ c)
  have h7 : W1 m ρ c (Proc.devRef .tc main_v7) = degree (F := F) (m ((c : Thread nD τ).loc main_arg1)) :=
    ops0_degree (W0 m ρ c)
  have h1 : W1 m ρ c (Proc.devRef .tc main_cst_3) = constant (F := F) S_ .f32 0x3F800000#32 := ops0_one (W0 m ρ c)
  refine (ops0_1_sel (W1 m ρ c)).trans ?_
  rw [h11, h7, h1]

/-- After the fourth stretch: the normaliser, `1 / √deg` at a node with an incoming edge and `0` at the others. -/
private theorem W4_invSqrtDeg (c : Dev nD) :
    W4 m ρ c (Proc.devRef .tc main_v16) = invSqrtDeg (F := F) (m ((c : Thread nD τ).loc main_arg1)) := by
  have h9 : W3 m ρ c (Proc.devRef .tc main_v9) = hasEdge (F := F) (m ((c : Thread nD τ).loc main_arg1)) :=
    calc W3 m ρ c (Proc.devRef .tc main_v9)
      _ = W2 m ρ c (Proc.devRef .tc main_v9) := by carried hostOps0_2
      _ = W1 m ρ c (Proc.devRef .tc main_v9) := by carried hostOps0_1
      _ = hasEdge (F := F) (m ((c : Thread nD τ).loc main_arg1)) := ops0_hasEdge9 (W0 m ρ c)
  have h15 : W3 m ρ c (Proc.devRef .tc main_v15)
      = Host.divf (broadcastInDim S600000 ![] bcast_S_S600000 (constant (F := F) S_ .f32 0x3F800000#32))
          (Host.sqrt (W2 m ρ c (Proc.devRef .tc main_v12))) := ops0_2_div (W2 m ρ c)
  have h0 : W3 m ρ c (Proc.devRef .tc main_cst_5) = constant (F := F) S_ .f32 0x00000000#32 := ops0_2_zero (W2 m ρ c)
  unfold invSqrtDeg
  refine (ops0_3_sel (W3 m ρ c)).trans ?_
  rw [h9, h15, h0, W2_safeDeg m ρ c]

/-- Before the first pass's fetch the weight column is the edge weights, reshaped. -/
private theorem W5_normColumn (c : Dev nD) :
    W5 m ρ c (Proc.devRef .tc main_v32) = normColumn (F := F) (m ((c : Thread nD τ).loc main_arg1)) := by
  have h1 : W4 m ρ c (Proc.devRef .tc main_v1) = row (m ((c : Thread nD τ).loc main_arg1)) :=
    calc W4 m ρ c (Proc.devRef .tc main_v1)
      _ = W3 m ρ c (Proc.devRef .tc main_v1) := by carried hostOps0_3
      _ = W2 m ρ c (Proc.devRef .tc main_v1) := by carried hostOps0_2
      _ = W1 m ρ c (Proc.devRef .tc main_v1) := by carried hostOps0_1
      _ = row (m ((c : Thread nD τ).loc main_arg1)) := ops0_row (W0 m ρ c)
  have h3 : W4 m ρ c (Proc.devRef .tc main_v3) = col (m ((c : Thread nD τ).loc main_arg1)) :=
    calc W4 m ρ c (Proc.devRef .tc main_v3)
      _ = W3 m ρ c (Proc.devRef .tc main_v3) := by carried hostOps0_3
      _ = W2 m ρ c (Proc.devRef .tc main_v3) := by carried hostOps0_2
      _ = W1 m ρ c (Proc.devRef .tc main_v3) := by carried hostOps0_1
      _ = col (m ((c : Thread nD τ).loc main_arg1)) := ops0_col (W0 m ρ c)
  unfold normColumn norm
  refine (ops0_4_col (W4 m ρ c)).trans ?_
  rw [h1, h3, W4_invSqrtDeg m ρ c]

/-- Between the two passes the first layer's buffer holds one kernel step of the embedding: the fetch at the sources,
    the weighing pass over it and the weight column, the sum into the targets' rows. -/
private theorem W8_layer1 (c : Dev nD) :
    W8 m ρ c (Proc.devRef .tc main_v37) = kStep (m ((c : Thread nD τ).loc main_arg1)) (m ((c : Thread nD τ).loc main_arg0)) := by
  have h3 : W7 m ρ c (Proc.devRef .tc main_v3) = col (m ((c : Thread nD τ).loc main_arg1)) :=
    calc W7 m ρ c (Proc.devRef .tc main_v3)
      _ = W6 m ρ c (Proc.devRef .tc main_v3) := W7_of_ne m ρ c main_v3 (by decide)
      _ = W5 m ρ c (Proc.devRef .tc main_v3) := by carried hostOps0_5
      _ = col (m ((c : Thread nD τ).loc main_arg1)) := W5_col m ρ c
  have h33 : V6 m ρ c main_v33
      = takeRowsAt (m ((c : Thread nD τ).loc main_arg0)) (row (m ((c : Thread nD τ).loc main_arg1))) := by
    refine (ops0_5_take (W5 m ρ c)).trans ?_
    rw [W5_arg0 m ρ c, W5_row m ρ c]
  have h32 : V6 m ρ c main_v32 = normColumn (F := F) (m ((c : Thread nD τ).loc main_arg1)) :=
    calc W6 m ρ c (Proc.devRef .tc main_v32)
      _ = W5 m ρ c (Proc.devRef .tc main_v32) := by carried hostOps0_5
      _ = normColumn (F := F) (m ((c : Thread nD τ).loc main_arg1)) := W5_normColumn m ρ c
  have h34 : W7 m ρ c (Proc.devRef .tc main_v34)
      = scaleRows (takeRowsAt (m ((c : Thread nD τ).loc main_arg0)) (row (m ((c : Thread nD τ).loc main_arg1))))
          (normColumn (F := F) (m ((c : Thread nD τ).loc main_arg1))) := by
    refine ((W7_arr m ρ c 2).trans (scale0 (V6 m ρ) c)).trans ?_
    rw [h33, h32]
  unfold kStep scatterRows takeRows
  refine (ops1_scatter (W7 m ρ c)).trans ?_
  rw [h3, h34]

/-- After the first layer the sources are still row 0 of the index array. -/
theorem W9_row (c : Dev nD) : W9 m ρ c (Proc.devRef .tc main_v1) = row (m ((c : Thread nD τ).loc main_arg1)) :=
  calc W9 m ρ c (Proc.devRef .tc main_v1)
    _ = W8 m ρ c (Proc.devRef .tc main_v1) := W9_of_ne m ρ c main_v1 (by decide)
    _ = W7 m ρ c (Proc.devRef .tc main_v1) := by carried hostOps1
    _ = W6 m ρ c (Proc.devRef .tc main_v1) := W7_of_ne m ρ c main_v1 (by decide)
    _ = W5 m ρ c (Proc.devRef .tc main_v1) := by carried hostOps0_5
    _ = row (m ((c : Thread nD τ).loc main_arg1)) := W5_row m ρ c

/-- … and the targets its row 1. -/
theorem W9_col (c : Dev nD) : W9 m ρ c (Proc.devRef .tc main_v3) = col (m ((c : Thread nD τ).loc main_arg1)) :=
  calc W9 m ρ c (Proc.devRef .tc main_v3)
    _ = W8 m ρ c (Proc.devRef .tc main_v3) := W9_of_ne m ρ c main_v3 (by decide)
    _ = W7 m ρ c (Proc.devRef .tc main_v3) := by carried hostOps1
    _ = W6 m ρ c (Proc.devRef .tc main_v3) := W7_of_ne m ρ c main_v3 (by decide)
    _ = W5 m ρ c (Proc.devRef .tc main_v3) := by carried hostOps0_5
    _ = col (m ((c : Thread nD τ).loc main_arg1)) := W5_col m ρ c

/-- … and the weight column the edge weights, reshaped. -/
theorem W9_normColumn (c : Dev nD) :
    W9 m ρ c (Proc.devRef .tc main_v32) = normColumn (F := F) (m ((c : Thread nD τ).loc main_arg1)) :=
  calc W9 m ρ c (Proc.devRef .tc main_v32)
    _ = W8 m ρ c (Proc.devRef .tc main_v32) := W9_of_ne m ρ c main_v32 (by decide)
    _ = W7 m ρ c (Proc.devRef .tc main_v32) := by carried hostOps1
    _ = W6 m ρ c (Proc.devRef .tc main_v32) :=
      (W7_arr m ρ c 1).trans (((dat0 (V6 m ρ) c).arrAt_in 1 rfl _).trans (A_eq0 (V6 m ρ) c 1))
    _ = W5 m ρ c (Proc.devRef .tc main_v32) := by carried hostOps0_5
    _ = normColumn (F := F) (m ((c : Thread nD τ).loc main_arg1)) := W5_normColumn m ρ c

/-- The first layer: one kernel step of the embedding. -/
theorem W9_layer1 (c : Dev nD) :
    W9 m ρ c (Proc.devRef .tc main_v37) = kStep (m ((c : Thread nD τ).loc main_arg1)) (m ((c : Thread nD τ).loc main_arg0)) :=
  calc W9 m ρ c (Proc.devRef .tc main_v37)
    _ = W8 m ρ c (Proc.devRef .tc main_v37) :=
      (W9_arr m ρ c 1).trans (((dat1 (V8 m ρ) c).arrAt_in 1 rfl _).trans (A_eq1 (V8 m ρ) c 1))
    _ = kStep (m ((c : Thread nD τ).loc main_arg1)) (m ((c : Thread nD τ).loc main_arg0)) := W8_layer1 m ρ c

/-- The running sum after the first layer. -/
theorem W9_sum1 (c : Dev nD) :
    W9 m ρ c (Proc.devRef .tc main_v38) = accum 0x3F800000#32 (m ((c : Thread nD τ).loc main_arg0))
      (kStep (m ((c : Thread nD τ).loc main_arg1)) (m ((c : Thread nD τ).loc main_arg0))) := by
  have h0 : V8 m ρ c main_arg0 = m ((c : Thread nD τ).loc main_arg0) :=
    calc W8 m ρ c (Proc.devRef .tc main_arg0)
      _ = W7 m ρ c (Proc.devRef .tc main_arg0) := by carried hostOps1
      _ = W6 m ρ c (Proc.devRef .tc main_arg0) := W7_of_ne m ρ c main_arg0 (by decide)
      _ = W5 m ρ c (Proc.devRef .tc main_arg0) := by carried hostOps0_5
      _ = m ((c : Thread nD τ).loc main_arg0) := W5_arg0 m ρ c
  have h37 : V8 m ρ c main_v37 = kStep (m ((c : Thread nD τ).loc main_arg1)) (m ((c : Thread nD τ).loc main_arg0)) :=
    W8_layer1 m ρ c
  refine ((W9_arr m ρ c 2).trans (accum1 (V8 m ρ) c)).trans ?_
  rw [h0, h37]

end Cert.LightGcn

end
-- ==== Proof.FoldRest.lean ====
/-
  The kernel program's two results, read off the run's last boundary contents.

  From the buffers after the first layer (the sources, the targets, the weight column, the first layer and
  the running sum) the second and third layers are each a fill-take of the layer before at the sources, a
  weighing pass, a scatter-add at the targets and an accumulating pass; the last pass takes the mean, and
  the two results are its first 200000 rows and its other 400000.
-/
import proofs.«419731_j35802847380042_1_alg».proof.Proof.Gen.KernelIdeal.Frame
import proofs.«419731_j35802847380042_1_alg».proof.Proof.Spec
import proofs.«419731_j35802847380042_1_alg».proof.Proof.MessageScale
import proofs.«419731_j35802847380042_1_alg».proof.Proof.Accumulate
import proofs.«419731_j35802847380042_1_alg».proof.Proof.FoldFirst
import Idealize.ShloMosaic.Lib.StableHlo.Run

noncomputable section

namespace Cert.LightGcn

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! ## Values read at references that carry their tensor type

The fill-take is a function of the program, and its operations name their buffers by references that carry the
type of the tensor they hold; a value goes into such a buffer, and comes out of it, along the equation between
the buffer's type and the tensor's. Out after in is the identity, and at a literal reference each way alone is. -/

/-- Storing a value at a typed reference and reading it back gives the value. -/
private theorem ofBuf_toBuf {Val : EltTy → Type} {sig : RefSig} {T : BufTy} (x : StableHlo.TRef sig T) (v : T.Contents Val) :
    x.ofBuf (x.toBuf v) = v := by
  obtain ⟨r, rfl, _, _⟩ := x; rfl

/-- The sources' buffer read at its tensor type is its contents. -/
private theorem read_v1 (v : IVec S1200000 32) :
    (StableHlo.TRef.of (T := ⟨S1200000, .i32⟩) main_v1).ofBuf (Val := Elt F) v = v := rfl

/-- The first layer's buffer read at its tensor type is its contents. -/
private theorem read_v37 (v : FVec F S600000x64 .f32) :
    (StableHlo.TRef.of (T := ⟨S600000x64, .f32⟩) main_v37).ofBuf (Val := Elt F) v = v := rfl

/-- The second layer's buffer read at its tensor type is its contents. -/
private theorem read_v43 (v : FVec F S600000x64 .f32) :
    (StableHlo.TRef.of (T := ⟨S600000x64, .f32⟩) main_v43).ofBuf (Val := Elt F) v = v := rfl

/-- The buffer of the rows fetched from the first layer, read at its tensor type, is its contents. -/
private theorem read_v39 (v : FVec F S1200000x64 .f32) :
    (StableHlo.TRef.of (T := ⟨S1200000x64, .f32⟩) main_v39).ofBuf (Val := Elt F) v = v := rfl

/-- The buffer of the rows fetched from the second layer, read at its tensor type, is its contents. -/
private theorem read_v45 (v : FVec F S1200000x64 .f32) :
    (StableHlo.TRef.of (T := ⟨S1200000x64, .f32⟩) main_v45).ofBuf (Val := Elt F) v = v := rfl

/-! ## What each stretch of host operations computes, from any contents -/

set_option maxHeartbeats 1000000 in
/-- The fill-take of the second layer's pass, its two operands and its result read at their tensor types: every
    intermediate value is stored and read back at once, so what is left is the fill-take of the operands. -/
private theorem take2_typed (V : Valuation τ sig (Elt F)) (x : FVec F S600000x64 .f32) (r : IVec S1200000 32)
    (hx : (StableHlo.TRef.of (T := ⟨S600000x64, .f32⟩) main_v37).ofBuf (V (Proc.devRef .tc main_v37)) = x)
    (hr : (StableHlo.TRef.of (T := ⟨S1200000, .i32⟩) main_v1).ofBuf (V (Proc.devRef .tc main_v1)) = r) :
    (StableHlo.TRef.of (T := ⟨S1200000x64, .f32⟩) main_v39).ofBuf (StableHlo.after hostOps2 V (Proc.devRef .tc main_v39))
      = takeRowsAt (F := F) x r := by
  after_results_simp
  simp only [ofBuf_toBuf, hx, hr]
  unfold takeRowsAt inRangeAt gatherRowsAt wrap
  rfl

set_option maxHeartbeats 1000000 in
/-- The fill-take of the third layer's pass, likewise. -/
private theorem take4_typed (V : Valuation τ sig (Elt F)) (x : FVec F S600000x64 .f32) (r : IVec S1200000 32)
    (hx : (StableHlo.TRef.of (T := ⟨S600000x64, .f32⟩) main_v43).ofBuf (V (Proc.devRef .tc main_v43)) = x)
    (hr : (StableHlo.TRef.of (T := ⟨S1200000, .i32⟩) main_v1).ofBuf (V (Proc.devRef .tc main_v1)) = r) :
    (StableHlo.TRef.of (T := ⟨S1200000x64, .f32⟩) main_v45).ofBuf (StableHlo.after hostOps4 V (Proc.devRef .tc main_v45))
      = takeRowsAt (F := F) x r := by
  after_results_simp
  simp only [ofBuf_toBuf, hx, hr]
  unfold takeRowsAt inRangeAt gatherRowsAt wrap
  rfl

/-- The rows of the layer before, fetched at the sources for the second layer. -/
private theorem take2 (V : Valuation τ sig (Elt F)) :
    StableHlo.after hostOps2 V (Proc.devRef .tc main_v39)
      = takeRowsAt (V (Proc.devRef .tc main_v37)) (V (Proc.devRef .tc main_v1)) :=
  (read_v39 _).symm.trans (take2_typed V _ _ (read_v37 _) (read_v1 _))

/-- The rows of the layer before, fetched at the sources for the third layer. -/
private theorem take4 (V : Valuation τ sig (Elt F)) :
    StableHlo.after hostOps4 V (Proc.devRef .tc main_v45)
      = takeRowsAt (V (Proc.devRef .tc main_v43)) (V (Proc.devRef .tc main_v1)) :=
  (read_v45 _).symm.trans (take4_typed V _ _ (read_v43 _) (read_v1 _))

/-! ## A stretch of host operations leaves alone every buffer it does not write -/

/-- Closes `after ops V b = V b` for a buffer `b` that none of the listed operations writes: the list is opened,
    each operation's written buffer is named, and each is told apart from `b`. -/
local macro "kept " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-- The scatter-add of the second layer: the weighed rows summed at the targets, from zero. -/
private theorem scat3 (V : Valuation τ sig (Elt F)) :
    StableHlo.after hostOps3 V (Proc.devRef .tc main_v43)
      = scatterRowsAt (V (Proc.devRef .tc main_v3)) (V (Proc.devRef .tc main_v40)) := by
  after_results
  rfl

/-- The scatter-add of the third layer. -/
private theorem scat5 (V : Valuation τ sig (Elt F)) :
    StableHlo.after hostOps5 V (Proc.devRef .tc main_v49)
      = scatterRowsAt (V (Proc.devRef .tc main_v3)) (V (Proc.devRef .tc main_v46)) := by
  after_results
  rfl

/-- The first result: the first 200000 rows of the mean. -/
private theorem slice6_users (V : Valuation τ sig (Elt F)) :
    StableHlo.after hostOps6 V (Proc.devRef .tc main_v51) = users (V (Proc.devRef .tc main_v50)) := by
  after_results
  rfl

/-- The second result: the other 400000 rows. -/
private theorem slice6_items (V : Valuation τ sig (Elt F)) :
    StableHlo.after hostOps6 V (Proc.devRef .tc main_v52) = items (V (Proc.devRef .tc main_v50)) := by
  after_results
  rfl

/-- One kernel step, with the sources and the targets named as the buffers hold them. -/
private theorem kStep_eq (e : IVec S2x1200000 32) (x : FVec F S600000x64 .f32) :
    kStep e x = scatterRowsAt (col e) (scaleRows (takeRowsAt x (row e)) (normColumn (F := F) e)) := rfl

/-! ## The second layer -/

section Layer2

variable (c : Dev nD)

private theorem W10_row : W10 m ρ c (Proc.devRef .tc main_v1) = row (m ((c : Thread nD τ).loc main_arg1)) := by
  refine Eq.trans ?_ (W9_row m ρ c)
  kept hostOps2

private theorem W10_col : W10 m ρ c (Proc.devRef .tc main_v3) = col (m ((c : Thread nD τ).loc main_arg1)) := by
  refine Eq.trans ?_ (W9_col m ρ c)
  kept hostOps2

private theorem W10_normColumn :
    W10 m ρ c (Proc.devRef .tc main_v32) = normColumn (F := F) (m ((c : Thread nD τ).loc main_arg1)) := by
  refine Eq.trans ?_ (W9_normColumn m ρ c)
  kept hostOps2

private theorem W10_sum1 :
    W10 m ρ c (Proc.devRef .tc main_v38) = accum 0x3F800000#32 (m ((c : Thread nD τ).loc main_arg0))
      (kStep (m ((c : Thread nD τ).loc main_arg1)) (m ((c : Thread nD τ).loc main_arg0))) := by
  refine Eq.trans ?_ (W9_sum1 m ρ c)
  kept hostOps2

/-- The rows of the first layer at the sources. -/
private theorem W10_take :
    W10 m ρ c (Proc.devRef .tc main_v39)
      = takeRowsAt (kStep (m ((c : Thread nD τ).loc main_arg1)) (m ((c : Thread nD τ).loc main_arg0)))
          (row (m ((c : Thread nD τ).loc main_arg1))) :=
  (take2 (W9 m ρ c)).trans (congrArg₂ takeRowsAt (W9_layer1 m ρ c) (W9_row m ρ c))

private theorem W11_row : W11 m ρ c (Proc.devRef .tc main_v1) = row (m ((c : Thread nD τ).loc main_arg1)) :=
  (W11_of_ne m ρ c main_v1 (by decide)).trans (W10_row m ρ c)

private theorem W11_col : W11 m ρ c (Proc.devRef .tc main_v3) = col (m ((c : Thread nD τ).loc main_arg1)) :=
  (W11_of_ne m ρ c main_v3 (by decide)).trans (W10_col m ρ c)

private theorem W11_sum1 :
    W11 m ρ c (Proc.devRef .tc main_v38) = accum 0x3F800000#32 (m ((c : Thread nD τ).loc main_arg0))
      (kStep (m ((c : Thread nD τ).loc main_arg1)) (m ((c : Thread nD τ).loc main_arg0))) :=
  (W11_of_ne m ρ c main_v38 (by decide)).trans (W10_sum1 m ρ c)

/-- The weight column is an input of the weighing pass: it leaves the pass as it entered. -/
private theorem W11_normColumn :
    W11 m ρ c (Proc.devRef .tc main_v32) = normColumn (F := F) (m ((c : Thread nD τ).loc main_arg1)) :=
  ((W11_arr m ρ c 1).trans (((dat2 (V10 m ρ) c).arrAt_in 1 rfl _).trans (A_eq2 (V10 m ρ) c 1))).trans
    (W10_normColumn m ρ c)

/-- The weighed rows of the second layer. -/
private theorem W11_scaled :
    W11 m ρ c (Proc.devRef .tc main_v40)
      = scaleRows (takeRowsAt (kStep (m ((c : Thread nD τ).loc main_arg1)) (m ((c : Thread nD τ).loc main_arg0)))
          (row (m ((c : Thread nD τ).loc main_arg1)))) (normColumn (F := F) (m ((c : Thread nD τ).loc main_arg1))) :=
  ((W11_arr m ρ c 2).trans (scale2 (V10 m ρ) c)).trans
    (congrArg₂ scaleRows (W10_take m ρ c) (W10_normColumn m ρ c))

end Layer2

section Layer2b

variable (c : Dev nD)

private theorem W12_row : W12 m ρ c (Proc.devRef .tc main_v1) = row (m ((c : Thread nD τ).loc main_arg1)) := by
  refine Eq.trans ?_ (W11_row m ρ c)
  kept hostOps3

private theorem W12_col : W12 m ρ c (Proc.devRef .tc main_v3) = col (m ((c : Thread nD τ).loc main_arg1)) := by
  refine Eq.trans ?_ (W11_col m ρ c)
  kept hostOps3

private theorem W12_normColumn :
    W12 m ρ c (Proc.devRef .tc main_v32) = normColumn (F := F) (m ((c : Thread nD τ).loc main_arg1)) := by
  refine Eq.trans ?_ (W11_normColumn m ρ c)
  kept hostOps3

private theorem W12_sum1 :
    W12 m ρ c (Proc.devRef .tc main_v38) = accum 0x3F800000#32 (m ((c : Thread nD τ).loc main_arg0))
      (kStep (m ((c : Thread nD τ).loc main_arg1)) (m ((c : Thread nD τ).loc main_arg0))) := by
  refine Eq.trans ?_ (W11_sum1 m ρ c)
  kept hostOps3

/-- The second layer: one kernel step of the first. -/
private theorem W12_layer2 :
    W12 m ρ c (Proc.devRef .tc main_v43)
      = kStep (m ((c : Thread nD τ).loc main_arg1))
          (kStep (m ((c : Thread nD τ).loc main_arg1)) (m ((c : Thread nD τ).loc main_arg0))) :=
  ((scat3 (W11 m ρ c)).trans (congrArg₂ scatterRowsAt (W11_col m ρ c) (W11_scaled m ρ c))).trans
    (kStep_eq _ _).symm

private theorem W13_row : W13 m ρ c (Proc.devRef .tc main_v1) = row (m ((c : Thread nD τ).loc main_arg1)) :=
  (W13_of_ne m ρ c main_v1 (by decide)).trans (W12_row m ρ c)

private theorem W13_col : W13 m ρ c (Proc.devRef .tc main_v3) = col (m ((c : Thread nD τ).loc main_arg1)) :=
  (W13_of_ne m ρ c main_v3 (by decide)).trans (W12_col m ρ c)

private theorem W13_normColumn :
    W13 m ρ c (Proc.devRef .tc main_v32) = normColumn (F := F) (m ((c : Thread nD τ).loc main_arg1)) :=
  (W13_of_ne m ρ c main_v32 (by decide)).trans (W12_normColumn m ρ c)

/-- The second layer is an input of the accumulating pass: it leaves the pass as it entered. -/
private theorem W13_layer2 :
    W13 m ρ c (Proc.devRef .tc main_v43)
      = kStep (m ((c : Thread nD τ).loc main_arg1))
          (kStep (m ((c : Thread nD τ).loc main_arg1)) (m ((c : Thread nD τ).loc main_arg0))) :=
  ((W13_arr m ρ c 1).trans (((dat3 (V12 m ρ) c).arrAt_in 1 rfl _).trans (A_eq3 (V12 m ρ) c 1))).trans
    (W12_layer2 m ρ c)

/-- The running sum after the second layer. -/
private theorem W13_sum2 :
    W13 m ρ c (Proc.devRef .tc main_v44)
      = accum 0x3F800000#32
          (accum 0x3F800000#32 (m ((c : Thread nD τ).loc main_arg0))
            (kStep (m ((c : Thread nD τ).loc main_arg1)) (m ((c : Thread nD τ).loc main_arg0))))
          (kStep (m ((c : Thread nD τ).loc main_arg1))
            (kStep (m ((c : Thread nD τ).loc main_arg1)) (m ((c : Thread nD τ).loc main_arg0)))) :=
  ((W13_arr m ρ c 2).trans (accum3 (V12 m ρ) c)).trans
    (congrArg₂ (accum 0x3F800000#32) (W12_sum1 m ρ c) (W12_layer2 m ρ c))

end Layer2b

/-! ## The third layer -/

section Layer3

variable (c : Dev nD)

private theorem W14_col : W14 m ρ c (Proc.devRef .tc main_v3) = col (m ((c : Thread nD τ).loc main_arg1)) := by
  refine Eq.trans ?_ (W13_col m ρ c)
  kept hostOps4

private theorem W14_normColumn :
    W14 m ρ c (Proc.devRef .tc main_v32) = normColumn (F := F) (m ((c : Thread nD τ).loc main_arg1)) := by
  refine Eq.trans ?_ (W13_normColumn m ρ c)
  kept hostOps4

private theorem W14_sum2 :
    W14 m ρ c (Proc.devRef .tc main_v44)
      = accum 0x3F800000#32
          (accum 0x3F800000#32 (m ((c : Thread nD τ).loc main_arg0))
            (kStep (m ((c : Thread nD τ).loc main_arg1)) (m ((c : Thread nD τ).loc main_arg0))))
          (kStep (m ((c : Thread nD τ).loc main_arg1))
            (kStep (m ((c : Thread nD τ).loc main_arg1)) (m ((c : Thread nD τ).loc main_arg0)))) := by
  refine Eq.trans ?_ (W13_sum2 m ρ c)
  kept hostOps4

/-- The rows of the second layer at the sources. -/
private theorem W14_take :
    W14 m ρ c (Proc.devRef .tc main_v45)
      = takeRowsAt (kStep (m ((c : Thread nD τ).loc main_arg1))
            (kStep (m ((c : Thread nD τ).loc main_arg1)) (m ((c : Thread nD τ).loc main_arg0))))
          (row (m ((c : Thread nD τ).loc main_arg1))) :=
  (take4 (W13 m ρ c)).trans (congrArg₂ takeRowsAt (W13_layer2 m ρ c) (W13_row m ρ c))

private theorem W15_col : W15 m ρ c (Proc.devRef .tc main_v3) = col (m ((c : Thread nD τ).loc main_arg1)) :=
  (W15_of_ne m ρ c main_v3 (by decide)).trans (W14_col m ρ c)

private theorem W15_sum2 :
    W15 m ρ c (Proc.devRef .tc main_v44)
      = accum 0x3F800000#32
          (accum 0x3F800000#32 (m ((c : Thread nD τ).loc main_arg0))
            (kStep (m ((c : Thread nD τ).loc main_arg1)) (m ((c : Thread nD τ).loc main_arg0))))
          (kStep (m ((c : Thread nD τ).loc main_arg1))
            (kStep (m ((c : Thread nD τ).loc main_arg1)) (m ((c : Thread nD τ).loc main_arg0)))) :=
  (W15_of_ne m ρ c main_v44 (by decide)).trans (W14_sum2 m ρ c)

/-- The weighed rows of the third layer. -/
private theorem W15_scaled :
    W15 m ρ c (Proc.devRef .tc main_v46)
      = scaleRows (takeRowsAt (kStep (m ((c : Thread nD τ).loc main_arg1))
            (kStep (m ((c : Thread nD τ).loc main_arg1)) (m ((c : Thread nD τ).loc main_arg0))))
          (row (m ((c : Thread nD τ).loc main_arg1)))) (normColumn (F := F) (m ((c : Thread nD τ).loc main_arg1))) :=
  ((W15_arr m ρ c 2).trans (scale4 (V14 m ρ) c)).trans
    (congrArg₂ scaleRows (W14_take m ρ c) (W14_normColumn m ρ c))

private theorem W16_sum2 :
    W16 m ρ c (Proc.devRef .tc main_v44)
      = accum 0x3F800000#32
          (accum 0x3F800000#32 (m ((c : Thread nD τ).loc main_arg0))
            (kStep (m ((c : Thread nD τ).loc main_arg1)) (m ((c : Thread nD τ).loc main_arg0))))
          (kStep (m ((c : Thread nD τ).loc main_arg1))
            (kStep (m ((c : Thread nD τ).loc main_arg1)) (m ((c : Thread nD τ).loc main_arg0)))) := by
  refine Eq.trans ?_ (W15_sum2 m ρ c)
  kept hostOps5

/-- The third layer: one kernel step of the second. -/
private theorem W16_layer3 :
    W16 m ρ c (Proc.devRef .tc main_v49)
      = kStep (m ((c : Thread nD τ).loc main_arg1))
          (kStep (m ((c : Thread nD τ).loc main_arg1))
            (kStep (m ((c : Thread nD τ).loc main_arg1)) (m ((c : Thread nD τ).loc main_arg0)))) :=
  ((scat5 (W15 m ρ c)).trans (congrArg₂ scatterRowsAt (W15_col m ρ c) (W15_scaled m ρ c))).trans
    (kStep_eq _ _).symm

/-! ## The mean and its two parts -/

/-- The last pass leaves the mean of the four layers. -/
private theorem W17_mean :
    W17 m ρ c (Proc.devRef .tc main_v50)
      = kMean (m ((c : Thread nD τ).loc main_arg0)) (m ((c : Thread nD τ).loc main_arg1)) :=
  ((W17_arr m ρ c 2).trans (accum5 (V16 m ρ) c)).trans
    (congrArg₂ (accum 0x3E800000#32) (W16_sum2 m ρ c) (W16_layer3 m ρ c))

end Layer3

/-- The first result buffer ends at the users' rows of the kernel's mean. -/
theorem W18_users (c : Dev nD) :
    W18 m ρ c (Proc.devRef .tc main_v51) = users (kMean (m ((c : Thread nD τ).loc main_arg0)) (m ((c : Thread nD τ).loc main_arg1))) :=
  (slice6_users (W17 m ρ c)).trans (congrArg users (W17_mean m ρ c))

/-- The second result buffer ends at the items' rows of the kernel's mean. -/
theorem W18_items (c : Dev nD) :
    W18 m ρ c (Proc.devRef .tc main_v52) = items (kMean (m ((c : Thread nD τ).loc main_arg0)) (m ((c : Thread nD τ).loc main_arg1))) :=
  (slice6_items (W17 m ρ c)).trans (congrArg items (W17_mean m ρ c))

end Cert.LightGcn

end
-- ==== Proof.RefValue.lean ====
/-
  The reference program's two results are the users' and the items' rows of `rMean`.

  The reference's run ends with each result at the composition of its host operations over the two
  arguments. That composition is, operation for operation, `users (rMean x e)` and `items (rMean x e)`:
  the degree, the normaliser and the edge weight are computed as `Spec` names them, each layer is
  `rStep` of the one before, and the mean is the quotient by 4 of the sum of the four layers.
-/
import proofs.«419731_j35802847380042_1_alg».proof.Proof.RefRun
import proofs.«419731_j35802847380042_1_alg».proof.Proof.Spec

noncomputable section

namespace Cert.LightGcn

open Idealize.ShloMosaic Idealize.ShloMosaic.TcCoe Idealize.SL.Sem Cert.KernelIdeal

variable {F : FTy → Type} [FloatOps F]
set_option maxRecDepth 8192 in
/-- The reference's first result. -/
theorem ref_users (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v76 (F := F) m c
      = users (rMean (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))) := by
  -- Both sides are the same composition of operations once the names are opened: the degree, the
  -- normaliser and the edge weight sit where `norm` puts them, each layer is one `rStep` of the layer
  -- before, the four layers are summed and divided by 4, and the first 200000 rows are kept.
  unfold Cert.ReferenceIdeal.ValueP.res_main_v76
  unfold users rMean rStep scatterRows scatterRowsAt gatherRows gatherRowsAt norm invSqrtDeg hasEdge degree wrap row col
  rfl

set_option maxRecDepth 8192 in
/-- The reference's second result. -/
theorem ref_items (m : (ℓ : Loc Cert.ReferenceIdeal.nD Cert.ReferenceIdeal.τ Cert.ReferenceIdeal.sig) → Buf (Elt F) ℓ) (c : Dev Cert.ReferenceIdeal.nD) :
    Cert.ReferenceIdeal.ValueP.res_main_v77 (F := F) m c
      = items (rMean (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))) := by
  -- The same composition as for the first result, with the other 400000 rows kept at the end.
  unfold Cert.ReferenceIdeal.ValueP.res_main_v77
  unfold items rMean rStep scatterRows scatterRowsAt gatherRows gatherRowsAt norm invSqrtDeg hasEdge degree wrap row col
  rfl

end Cert.LightGcn

end
-- ==== Proof.Bridge.lean ====
/-
  On the extended reals the kernel's mean and the reference's mean are one function, where every source is in range.

  With the fill never taken, a kernel step weighs each gathered row by its weight read from a column,
  g · w, where the reference's step has w · g with the weight broadcast along the features: the product
  of extended reals commutes, and reading a reshaped column at row i, and a twice-broadcast vector at
  (i, j), both give the weight of edge i. The running sums differ by a factor 1, which the product leaves
  alone, and the kernel's last factor 1/4 against the reference's quotient by 4 is the same extended
  real: 1/4 and 4 are exact in the format, and dividing by 4 is multiplying by its inverse, also at ±∞.
-/
import proofs.«419731_j35802847380042_1_alg».proof.Proof.Spec
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.LightGcn

open Idealize.ShloMosaic Idealize.ShloMosaic.TcCoe Idealize.SL.Sem Cert.KernelIdeal

/-- The edge an index of an E×64 array belongs to, as an index of a vector over the edges. -/
private def edgeOf (i : S1200000x64.Idx) : S1200000.Idx :=
  ValueIdx.ix1 (⟨(i 0).val, (i 0).isLt⟩ : Fin 1200000)

/-- A vector over the edges reshaped to a column, read at the row of `i`, is the vector at that edge. -/
private theorem column_rowOf (w : FVec Ideal S1200000 .f32) (i : S1200000x64.Idx) :
    shapeCast S1200000x1 w Facts₀.shapeCasts_S1200000_S1200000x1 (rowOf i) = w (edgeOf i) := by
  refine shapeCast_apply _ _ _ _ ?_
  rw [Shape.rowMajor_val_one, Shape.rowMajor_val_two]
  show (i 0).val = (i 0).val * 1 + 0
  omega

/-- A vector over the edges broadcast to a column and then along the features, read at `i`, is the vector at that edge. -/
private theorem spread_apply (w : FVec Ideal S1200000 .f32) (i : S1200000x64.Idx) :
    broadcastInDim S1200000x64 ![0, 1] Cert.ReferenceIdeal.Facts₀.bcast_S1200000x1_S1200000x64_0_1
        (broadcastInDim S1200000x1 ![0] Facts₀.bcast_S1200000_S1200000x1_0 w) i
      = w (edgeOf i) := by
  refine (broadcastInDim_apply _ _ _ i (rowOf i) ?_).trans (broadcastInDim_apply _ _ _ (rowOf i) (edgeOf i) ?_)
  · intro a
    match a with
    | ⟨0, _⟩ =>
      show (i 0).val = if (1200000 : ℕ) = 1 then 0 else (i 0).val
      rw [if_neg (by decide)]
    | ⟨1, _⟩ =>
      show (0 : ℕ) = if (1 : ℕ) = 1 then 0 else _
      rw [if_pos rfl]
  · intro a
    match a with
    | ⟨0, _⟩ =>
      show (i 0).val = if (1200000 : ℕ) = 1 then 0 else (i 0).val
      rw [if_neg (by decide)]

/-- Rows weighed from a reshaped column, g · w, are the weights spread along the features times the rows, w · g:
    both read the weight of the row's edge, and the product of extended reals commutes. -/
private theorem scale_comm (g : FVec Ideal S1200000x64 .f32) (w : FVec Ideal S1200000 .f32) :
    scaleRows g (shapeCast S1200000x1 w Facts₀.shapeCasts_S1200000_S1200000x1)
      = mulf (broadcastInDim S1200000x64 ![0, 1] Cert.ReferenceIdeal.Facts₀.bcast_S1200000x1_S1200000x64_0_1
          (broadcastInDim S1200000x1 ![0] Facts₀.bcast_S1200000_S1200000x1_0 w)) g := by
  funext i
  show g i * shapeCast S1200000x1 w Facts₀.shapeCasts_S1200000_S1200000x1 (rowOf i)
    = broadcastInDim S1200000x64 ![0, 1] Cert.ReferenceIdeal.Facts₀.bcast_S1200000x1_S1200000x64_0_1
        (broadcastInDim S1200000x1 ![0] Facts₀.bcast_S1200000_S1200000x1_0 w) i * g i
  rw [column_rowOf, spread_apply, mul_comm]

/-- One step: with the fill never taken, the kernel's step is the reference's. -/
private theorem kStep_eq_rStep (e : IVec S2x1200000 32)
    (hin : ∀ y : FVec Ideal S600000x64 .f32, takeRows y e = gatherRows y e) (y : FVec Ideal S600000x64 .f32) :
    kStep e y = rStep e y := by
  unfold kStep rStep normColumn
  rw [hin y]
  exact congrArg (scatterRows (F := Ideal) e) (scale_comm (gatherRows y e) (norm (F := Ideal) e))

/-- The word 0x3E800000 denotes the real 1/4. -/
private theorem ofBits_quarter : Ideal.ofBits .f32 0x3E800000#32 = ((1 / 4 : ℝ) : EReal) := by
  simp [Ideal.ofBits, Ideal.ieee, -EReal.coe_mul]; norm_num

/-- The word 0x40800000 denotes the real 4. -/
private theorem ofBits_four : Ideal.ofBits .f32 0x40800000#32 = ((4 : ℝ) : EReal) := by
  simp [Ideal.ofBits, Ideal.ieee, -EReal.coe_mul]; norm_num

/-- A running sum scaled by the factor 1 is the plain sum. -/
private theorem accum_one (a y : FVec Ideal S600000x64 .f32) : accum 0x3F800000#32 a y = addf a y := by
  funext i
  show (a i + y i) * Ideal.ofBits .f32 0x3F800000#32 = a i + y i
  rw [Ideal.ofBits_one_f32, mul_one]

/-- A sum scaled by 1/4 is its quotient by 4, on every extended real. -/
private theorem accum_quarter (a y : FVec Ideal S600000x64 .f32) :
    accum 0x3E800000#32 a y
      = Host.divf (addf a y) (broadcastInDim S600000x64 ![] Facts₀.bcast_S_S600000x64 (constant (F := Ideal) S_ .f32 0x40800000#32)) := by
  funext i
  show (a i + y i) * Ideal.ofBits .f32 0x3E800000#32
    = Ideal.div (a i + y i) (broadcastInDim S600000x64 ![] Facts₀.bcast_S_S600000x64 (constant (F := Ideal) S_ .f32 0x40800000#32) i)
  rw [ValueIdx.broadcastInDim_scalar_apply]
  show _ = Ideal.div (a i + y i) (Ideal.ofBits .f32 0x40800000#32)
  rw [ofBits_quarter, ofBits_four, Ideal.div_coe (by norm_num : (4 : ℝ) ≠ 0)]

/-- One function: the kernel's mean is the reference's, given that taking rows at the sources is gathering them. -/
theorem kMean_eq_rMean (x : FVec Ideal S600000x64 .f32) (e : IVec S2x1200000 32)
    (hin : ∀ y : FVec Ideal S600000x64 .f32, takeRows y e = gatherRows y e) : kMean x e = rMean x e := by
  have hs : ∀ y : FVec Ideal S600000x64 .f32, kStep e y = rStep e y := kStep_eq_rStep e hin
  unfold kMean rMean
  rw [accum_quarter, accum_one, accum_one]
  simp only [hs]

end Cert.LightGcn

end
-- ==== Proof.lean ====
/-
  The kernel program against its reference, over the extended reals: LightGCN propagation on N = 600000
  nodes and E = 1200000 edges, the mean of the embedding and three normalised neighbourhood sums of it.

  Both programs compute the in-degrees, the normalisers 1/√deg and the edge weights by the same host
  operations. The kernel program fetches the source rows with a fill value outside [0, N) where the
  reference gathers plainly; under the precondition (every source is a node index) the fill is never
  taken (`InRange`). It then weighs the fetched rows and adds the layers up in six block-wise passes,
  each of which leaves one whole-array function of what it found (`MessageScale`, `Accumulate`); read
  through the run's boundaries (`FoldFirst`, `FoldRest`) the two results are the users' and the items'
  rows of `kMean`. The reference's run ends at the same rows of `rMean` (`RefValue`), and on the extended
  reals the two means are one function (`Bridge`): the product commutes, a factor 1 changes nothing, and
  a factor 1/4 is a quotient by 4.

  The three frames are the programs' runs with the values dropped; the idealisation rewrote nothing, so
  there is nothing to preserve.
-/
import proofs.«419731_j35802847380042_1_alg».proof.Defs
import proofs.«419731_j35802847380042_1_alg».proof.Proof.Gen.Kernel
import proofs.«419731_j35802847380042_1_alg».proof.Proof.Gen.Kernel.Frame
import proofs.«419731_j35802847380042_1_alg».proof.Proof.Gen.KernelIdeal
import proofs.«419731_j35802847380042_1_alg».proof.Proof.Gen.KernelIdeal.Frame
import proofs.«419731_j35802847380042_1_alg».proof.Proof.Gen.ReferenceIdeal
import proofs.«419731_j35802847380042_1_alg».proof.Proof.Gen.Pre_finite_inputs
import proofs.«419731_j35802847380042_1_alg».proof.Proof.RefRun
import proofs.«419731_j35802847380042_1_alg».proof.Proof.KernelRun
import proofs.«419731_j35802847380042_1_alg».proof.Proof.Spec
import proofs.«419731_j35802847380042_1_alg».proof.Proof.InRange
import proofs.«419731_j35802847380042_1_alg».proof.Proof.FoldRest
import proofs.«419731_j35802847380042_1_alg».proof.Proof.RefValue
import proofs.«419731_j35802847380042_1_alg».proof.Proof.Bridge
import Idealize.ShloMosaic.Adequacy
import Idealize.ShloMosaic.Init

noncomputable section

namespace Cert.Proof

open Idealize.ShloMosaic Idealize.ShloMosaic.TcCoe Idealize.SL.Sem

/-- The kernel program at the word level runs to its end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2)
    (Cert.ReferenceIdeal.ValueP.run (F := Ideal) m ρ)

/-- Both programs, from memories that agree on the embedding and the index array, end with the users' and
    the items' rows of one mean: the kernel's run read through its boundaries gives `kMean`, the reference's
    run gives `rMean`, and under the precondition they are one function. -/
theorem algebraic : Cert.algebraic_KernelIdeal_ReferenceIdeal := by
  intro m ρ m' ρ' hpre hagree
  refine ⟨fun c => Cert.LightGcn.users (Cert.LightGcn.kMean (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
      fun c => Cert.LightGcn.items (Cert.LightGcn.kMean (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · exact (θ_run Cert.KernelIdeal.defs _ _).mono (fun _ h c =>
        ⟨(h c).1.trans (Cert.LightGcn.W18_users m ρ c), (h c).2.1.trans (Cert.LightGcn.W18_items m ρ c), (h c).2.2⟩)
      (Cert.KernelIdeal.GenR.run_results (F := Ideal) m ρ)
  · refine (θ_run Cert.ReferenceIdeal.defs _ _).mono (fun _ h c => ?_)
      (Cert.ReferenceIdeal.ValueP.run (F := Ideal) m' ρ')
    have hmean := Cert.LightGcn.kMean_eq_rMean
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun y => Cert.LightGcn.takeRows_eq_gatherRows _ y _ (hpre c))
    refine ⟨(h c).1.trans ?_, (h c).2.1.trans ?_, (h c).2.2⟩
    · rw [Cert.LightGcn.ref_users, (hagree c).1, (hagree c).2, ← hmean]
    · rw [Cert.LightGcn.ref_items, (hagree c).1, (hagree c).2, ← hmean]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
